-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S262144 : Shape := ⟨1, ![262144]⟩
abbrev S128x512 : Shape := ⟨2, ![128, 512]⟩
abbrev S128 : Shape := ⟨1, ![128]⟩
abbrev S128x10000 : Shape := ⟨2, ![128, 10000]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S128x10000 : S_.BroadcastsInDim S128x10000 (![] : Fin 0 → Fin S128x10000.rank)
  reducesTo_S128x10000_S_d0_1 : S128x10000.ReducesTo [0, 1] S_
  bcast_S_S262144 : S_.BroadcastsInDim S262144 (![] : Fin 0 → Fin S262144.rank)
  reducesTo_S262144_S_d0 : S262144.ReducesTo [0] S_

variable [Facts]

def fn_part2 {F : FTy → Type} [FloatOps F] (main_arg1 : IVec S262144 32) (main_v33 : IVec S_ 1) : IVec S_ 1 :=
  let main_c_12 : IVec S_ 32 := constantI S_ 32 0#32
  let main_v34 : IVec S262144 32 := broadcastInDim S262144 ![] bcast_S_S262144 main_c_12
  let main_v35 : IVec S262144 1 := cmpi .sge main_arg1 main_v34
  let main_c_13 : IVec S_ 1 := constantI S_ 1 1#1
  let main_v36 : IVec S_ 1 := (fun x v => Host.reduce IntOp.andi x v reducesTo_S262144_S_d0 h_S_) main_v35 main_c_13
  let main_v37 : IVec S_ 1 := andi main_v33 main_v36
  let main_c_14 : IVec S_ 32 := constantI S_ 32 10000#32
  let main_v38 : IVec S262144 32 := broadcastInDim S262144 ![] bcast_S_S262144 main_c_14
  let main_v39 : IVec S262144 1 := cmpi .slt main_arg1 main_v38
  let main_c_15 : IVec S_ 1 := constantI S_ 1 1#1
  let main_v40 : IVec S_ 1 := (fun x v => Host.reduce IntOp.andi x v reducesTo_S262144_S_d0 h_S_) main_v39 main_c_15
  let main_v41 : IVec S_ 1 := andi main_v37 main_v40
  main_v41

def fn_part1 {F : FTy → Type} [FloatOps F] (main_arg1 : IVec S262144 32) (main_arg5 : FVec F S128 .f32) (main_arg6 : FVec F S128x10000 .f32) (main_arg7 : FVec F S128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10000 .f32 := Host.absf main_arg6
  let main_cst_8 : FVec F S_ .f32 := constant S_ .f32 0x7F800000#32
  let main_v25 : FVec F S128x10000 .f32 := broadcastInDim S128x10000 ![] bcast_S_S128x10000 main_cst_8
  let main_v26 : IVec S128x10000 1 := cmpf .olt main_v24 main_v25
  let main_c_9 : IVec S_ 1 := constantI S_ 1 1#1
  let main_v27 : IVec S_ 1 := (fun x v => Host.reduce IntOp.andi x v reducesTo_S128x10000_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S262144x512 .f32) (main_arg1 : IVec S262144 32) (main_arg2 : FVec F S128x512 .f32) (main_arg3 : FVec F S128 .f32) (main_arg4 : FVec F S128x512 .f32) (main_arg5 : FVec F S128 .f32) (main_arg6 : FVec F S128x10000 .f32) (main_arg7 : FVec F S128 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg4
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg1 main_arg5 main_arg6 main_arg7 main_v13 main_v16
-- ==== Kernel.lean ====
abbrev S262144x512 : Shape := ⟨2, ![262144, 512]⟩
abbrev S262144 : Shape := ⟨1, ![262144]⟩
abbrev S128x512 : Shape := ⟨2, ![128, 512]⟩
abbrev S128 : Shape := ⟨1, ![128]⟩
abbrev S128x10000 : Shape := ⟨2, ![128, 10000]⟩
abbrev S256x512 : Shape := ⟨2, ![256, 512]⟩
abbrev S512x256 : Shape := ⟨2, ![512, 256]⟩
abbrev S256 : Shape := ⟨1, ![256]⟩
abbrev S1x256 : Shape := ⟨2, ![1, 256]⟩
abbrev S_ : Shape := ⟨0, ![]⟩
abbrev S128x10240 : Shape := ⟨2, ![128, 10240]⟩
abbrev S10240x128 : Shape := ⟨2, ![10240, 128]⟩
abbrev S10240x256 : Shape := ⟨2, ![10240, 256]⟩
abbrev S1x128 : Shape := ⟨2, ![1, 128]⟩
abbrev S1x262144 : Shape := ⟨2, ![1, 262144]⟩
abbrev S262144x128 : Shape := ⟨2, ![262144, 128]⟩
abbrev S1x1024 : Shape := ⟨2, ![1, 1024]⟩
abbrev S1024x512 : Shape := ⟨2, ![1024, 512]⟩
abbrev S1024x128 : Shape := ⟨2, ![1024, 128]⟩
abbrev S1024x256 : Shape := ⟨2, ![1024, 256]⟩
abbrev S1024x1 : Shape := ⟨2, ![1024, 1]⟩
abbrev S1024x1280 : Shape := ⟨2, ![1024, 1280]⟩
abbrev S1280x256 : Shape := ⟨2, ![1280, 256]⟩

abbrev nBuf : Space → Nat
  | .hbm => 35
  | .vmem => 15
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S128x512, .f32⟩
  | .hbm, ⟨3, _⟩ => ⟨S128, .f32⟩
  | .hbm, ⟨4, _⟩ => ⟨S128x512, .f32⟩
  | .hbm, ⟨5, _⟩ => ⟨S128, .f32⟩
  | .hbm, ⟨6, _⟩ => ⟨S128x10000, .f32⟩
  | .hbm, ⟨7, _⟩ => ⟨S128, .f32⟩
  | .hbm, ⟨8, _⟩ => ⟨S256x512, .f32⟩
  | .hbm, ⟨9, _⟩ => ⟨S512x256, .f32⟩
  | .hbm, ⟨10, _⟩ => ⟨S512x256, .bf16⟩
  | .hbm, ⟨11, _⟩ => ⟨S256, .f32⟩
  | .hbm, ⟨12, _⟩ => ⟨S1x256, .f32⟩
  | .hbm, ⟨13, _⟩ => ⟨S_, .i32⟩
  | .hbm, ⟨14, _⟩ => ⟨S_, .f32⟩
  | .hbm, ⟨15, _⟩ => ⟨S128x10240, .f32⟩
  | .hbm, ⟨16, _⟩ => ⟨S10240x128, .f32⟩
  | .hbm, ⟨17, _⟩ => ⟨S10240x128, .bf16⟩
  | .hbm, ⟨18, _⟩ => ⟨S10240x128, .f32⟩
  | .hbm, ⟨19, _⟩ => ⟨S10240x128, .f32⟩
  | .hbm, ⟨20, _⟩ => ⟨S10240x128, .bf16⟩
  | .hbm, ⟨21, _⟩ => ⟨S10240x256, .bf16⟩
  | .hbm, ⟨22, _⟩ => ⟨S1x128, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S262144, .i32⟩
  | .hbm, ⟨27, _⟩ => ⟨S262144, .i32⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S1x262144, .i32⟩
  | .hbm, ⟨32, _⟩ => ⟨S262144x128, .f32⟩
  | .hbm, ⟨33, _⟩ => ⟨S262144x128, .f32⟩
  | .hbm, ⟨34, _⟩ => ⟨S262144x128, .f32⟩
  | .local _ .vmem, ⟨0, _⟩ => ⟨S1x1024, .i32⟩
  | .local _ .vmem, ⟨1, _⟩ => ⟨S1x1024, .i32⟩
  | .local _ .vmem, ⟨2, _⟩ => ⟨S1024x512, .f32⟩
  | .local _ .vmem, ⟨3, _⟩ => ⟨S1024x512, .f32⟩
  | .local _ .vmem, ⟨4, _⟩ => ⟨S512x256, .bf16⟩
  | .local _ .vmem, ⟨5, _⟩ => ⟨S1x256, .f32⟩
  | .local _ .vmem, ⟨6, _⟩ => ⟨S10240x256, .bf16⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_c_1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_v15_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32 : BitVec 32 := 0#32
  let c8_i32 : BitVec 32 := 8#32
  let v20 : BitVec 32 := Scalar.addi c0_i32 c8_i32
  let c1_i32 : BitVec 32 := 1#32
  ⟨c0_i32, v20, c1_i32⟩
def k0_mult1 (k0_t1 : Fin k0_t1_loop.trips) : BitVec 32 :=
  let c0_i32_22 : BitVec 32 := 0#32
  let c0_i32 : BitVec 32 := 0#32
  let c1_i32 : BitVec 32 := 1#32
  let arg11 : BitVec 32 := Scf.iv c0_i32 c1_i32 k0_t1
  let c1_i32_21 : BitVec 32 := 1#32
  let v27 : BitVec 32 := Scalar.muli arg11 c1_i32_21
  let v28 : BitVec 32 := Scalar.addi c0_i32_22 v27
  let c1280_i32 : BitVec 32 := 1280#32
  let v29 : BitVec 32 := Scalar.muli v28 c1280_i32
  v29
def k0_off1 (k0_t1 : Fin k0_t1_loop.trips) : Fin 2 → Nat :=
  let c0_i32_22 : BitVec 32 := 0#32
  let c0_i32 : BitVec 32 := 0#32
  let c1_i32 : BitVec 32 := 1#32
  let arg11 : BitVec 32 := Scf.iv c0_i32 c1_i32 k0_t1
  let c1_i32_21 : BitVec 32 := 1#32
  let v27 : BitVec 32 := Scalar.muli arg11 c1_i32_21
  let v28 : BitVec 32 := Scalar.addi c0_i32_22 v27
  let c1280_i32 : BitVec 32 := 1280#32
  let v29 : BitVec 32 := Scalar.muli v28 c1280_i32
  let v30 : BitVec 32 := v29
  let v39 : Index := Scalar.indexCast v30
  let c0_23 : Index := 0#32
  ![v39.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10240x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S128x512_S128x512_S256x512_d0 : Shape.Concatenates [S128x512, S128x512] S256x512 0
  transposes_S256x512_S512x256_1_0 : S256x512.Transposes [1, 0] S512x256
  bitsLt_bf16_f32 : FTy.bits .bf16 < FTy.bits .f32
  concatenates_S128_S128_S256_d0 : Shape.Concatenates [S128, S128] S256 0
  shapeCasts_S256_S1x256 : S256.ShapeCasts S1x256
  pads_S128x10000_S128x10240_000_02400 : S128x10000.Pads (![0, 0] : Fin 2 → Nat) ![0, 240] ![0, 0] S128x10240
  h_S_ : 0 < S_.numel
  transposes_S128x10240_S10240x128_1_0 : S128x10240.Transposes [1, 0] S10240x128
  concatenates_S10240x128_S10240x128_S10240x256_d1 : Shape.Concatenates [S10240x128, S10240x128] S10240x256 1
  shapeCasts_S128_S1x128 : S128.ShapeCasts S1x128
  bcast_S_S262144 : S_.BroadcastsInDim S262144 (![] : Fin 0 → Fin S262144.rank)
  shapeCasts_S262144_S1x262144 : S262144.ShapeCasts S1x262144
  inb_S1024x512_S1024x512_0_0 : ∀ a, (![0, 0] : Fin 2 → Nat) a + S1024x512.size a ≤ S1024x512.size a
  h_S1024x512 : 0 < S1024x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S1024x256_o0_0_S1024x128 : S1024x256.Slices ![0, 0] S1024x128
  inb_S1024x128_S1024x128_0_0 : ∀ a, (![0, 0] : Fin 2 → Nat) a + S1024x128.size a ≤ S1024x128.size a
  h_S1024x128 : 0 < S1024x128.numel
  slices_S1024x256_o0_128_S1024x128 : S1024x256.Slices ![0, 128] S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  shapeCasts_S1024x128_S1024x128 : S1024x128.ShapeCasts S1024x128
  iota_S1024x1280_d1_w32 : S1024x1280.Iotas .tc 32 [1]
  broadcasts_S1024x1_S1024x1280 : S1024x1.Broadcasts S1024x1280
  natLt_1_32 : 1 < 32
  h_S1280x256 : 0 < S1280x256.numel
  shapeCasts_S1280x256_S1280x256 : S1280x256.ShapeCasts S1280x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x512_S512x256_S1024x256_1_0_0_1_n_n_wf : DotDims.WF S1024x512 S512x256 S1024x256 [1] [0] [0] [1] [] []
  dot_S1024x1280_S1280x256_S1024x256_1_0_0_1_n_n_wf : DotDims.WF S1024x1280 S1280x256 S1024x256 [1] [0] [0] [1] [] []
  hrank0 : 0 < grid0.rank
  k0_t1_ok : k0_t1_loop.OK
  k0_mult1_dvd : ∀ k0_t1 : Fin k0_t1_loop.trips, 1280 ∣ (k0_mult1 k0_t1).toNat
  k0_off1_inb : ∀ k0_t1 : Fin k0_t1_loop.trips, ∀ a, (k0_off1 k0_t1) a + S1280x256.size a ≤ S10240x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x262144.size a
  hwx0_0 : ∀ i : grid0.Coords, EltTy.bits .i32 = 32 ∨ (Rect.block (s := S1x262144) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S262144x512.size a
  hwx0_1 : ∀ i : grid0.Coords, EltTy.bits .f32 = 32 ∨ (Rect.block (s := S262144x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10240x256.size a ≤ S10240x256.size a
  hwx0_4 : ∀ i : grid0.Coords, EltTy.bits .bf16 = 32 ∨ (Rect.block (s := S10240x256) S10240x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S262144x128.size a
  hwx0_6 : ∀ i : grid0.Coords, EltTy.bits .f32 = 32 ∨ (Rect.block (s := S262144x128) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S262144x128.size a
  hwx0_7 : ∀ i : grid0.Coords, EltTy.bits .f32 = 32 ∨ (Rect.block (s := S262144x128) S1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S262144x128.size a
  hwx0_8 : ∀ i : grid0.Coords, EltTy.bits .f32 = 32 ∨ (Rect.block (s := S262144x128) S1024x128.size (cc0_transform_8 i) (hinb0_8 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1280_S1280x256_S1024x256_1_0_0_1_n_n : DotDims S1024x1280 S1280x256 S1024x256 where
  lhsContracting := [1]
  rhsContracting := [0]
  lhsNonContracting := [0]
  rhsNonContracting := [1]
  lhsBatch := []
  rhsBatch := []
  wf := dot_S1024x1280_S1280x256_S1024x256_1_0_0_1_n_n_wf

abbrev win0_0 : Pipeline.Window sig grid0 :=
  Pipeline.Window.ofSpec (Memref.whole main_v14) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S10240x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S1024x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v15_2) S1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x512 : Shape := ⟨2, ![262144, 512]⟩
abbrev S262144 : Shape := ⟨1, ![262144]⟩
abbrev S128x512 : Shape := ⟨2, ![128, 512]⟩
abbrev S128 : Shape := ⟨1, ![128]⟩
abbrev S128x10000 : Shape := ⟨2, ![128, 10000]⟩
abbrev S262144x128 : Shape := ⟨2, ![262144, 128]⟩
abbrev S1x128 : Shape := ⟨2, ![1, 128]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S128x262144 : Shape := ⟨2, ![128, 262144]⟩

abbrev nBuf : Space → Nat
  | .hbm => 43
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S128x512, .f32⟩
  | .hbm, ⟨3, _⟩ => ⟨S128, .f32⟩
  | .hbm, ⟨4, _⟩ => ⟨S128x512, .f32⟩
  | .hbm, ⟨5, _⟩ => ⟨S128, .f32⟩
  | .hbm, ⟨6, _⟩ => ⟨S128x10000, .f32⟩
  | .hbm, ⟨7, _⟩ => ⟨S128, .f32⟩
  | .hbm, ⟨8, _⟩ => ⟨S262144x128, .f32⟩
  | .hbm, ⟨9, _⟩ => ⟨S1x128, .f32⟩
  | .hbm, ⟨10, _⟩ => ⟨S262144x128, .f32⟩
  | .hbm, ⟨11, _⟩ => ⟨S262144x128, .f32⟩
  | .hbm, ⟨12, _⟩ => ⟨S262144x128, .f32⟩
  | .hbm, ⟨13, _⟩ => ⟨S1x128, .f32⟩
  | .hbm, ⟨14, _⟩ => ⟨S262144x128, .f32⟩
  | .hbm, ⟨15, _⟩ => ⟨S262144x128, .f32⟩
  | .hbm, ⟨16, _⟩ => ⟨S_, .i32⟩
  | .hbm, ⟨17, _⟩ => ⟨S262144, .i32⟩
  | .hbm, ⟨18, _⟩ => ⟨S262144, .i1⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S262144x1, .i32⟩
  | .hbm, ⟨24, _⟩ => ⟨S1, .i32⟩
  | .hbm, ⟨25, _⟩ => ⟨S_, .i32⟩
  | .hbm, ⟨26, _⟩ => ⟨S262144x1, .i32⟩
  | .hbm, ⟨27, _⟩ => ⟨S262144x1, .i1⟩
  | .hbm, ⟨28, _⟩ => ⟨S1x1, .i32⟩
  | .hbm, ⟨29, _⟩ => ⟨S262144x1, .i32⟩
  | .hbm, ⟨30, _⟩ => ⟨S262144x1, .i1⟩
  | .hbm, ⟨31, _⟩ => ⟨S262144x1, .i1⟩
  | .hbm, ⟨32, _⟩ => ⟨S_, .i1⟩
  | .hbm, ⟨33, _⟩ => ⟨S262144, .i1⟩
  | .hbm, ⟨34, _⟩ => ⟨S128x262144, .f32⟩
  | .hbm, ⟨35, _⟩ => ⟨S128x262144, .i1⟩
  | .hbm, ⟨36, _⟩ => ⟨S_, .f32⟩
  | .hbm, ⟨37, _⟩ => ⟨S128x262144, .f32⟩
  | .hbm, ⟨38, _⟩ => ⟨S128x262144, .f32⟩
  | .hbm, ⟨39, _⟩ => ⟨S262144x128, .f32⟩
  | .hbm, ⟨40, _⟩ => ⟨S1x128, .f32⟩
  | .hbm, ⟨41, _⟩ => ⟨S262144x128, .f32⟩
  | .hbm, ⟨42, _⟩ => ⟨S262144x128, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S128x262144_1 : S262144.BroadcastsInDim S128x262144 (![1] : Fin 1 → Fin S128x262144.rank)
  bcast_S_S128x262144 : S_.BroadcastsInDim S128x262144 (![] : Fin 0 → Fin S128x262144.rank)
  transposes_S128x262144_S262144x128_1_0 : S128x262144.Transposes [1, 0] S262144x128
  dot_S262144x512_S128x512_S262144x128_1_1_0_0_n_n_wf : DotDims.WF S262144x512 S128x512 S262144x128 [1] [1] [0] [0] [] []
  gather_S128x10000_S262144x1_S128x262144_0_1_n_n_1_1_1281_wf : GatherDims.WF S128x10000 S262144x1 S128x262144 [0] [1] [] [1] [] 1 ![128, 1]

variable [Facts₀]

def dot_S262144x512_S128x512_S262144x128_1_1_0_0_n_n : DotDims S262144x512 S128x512 S262144x128 where
  lhsContracting := [1]
  rhsContracting := [1]
  lhsNonContracting := [0]
  rhsNonContracting := [0]
  lhsBatch := []
  rhsBatch := []
  wf := dot_S262144x512_S128x512_S262144x128_1_1_0_0_n_n_wf
def gather_S128x10000_S262144x1_S128x262144_0_1_n_n_1_1_1281 : GatherDims S128x10000 S262144x1 S128x262144 where
  offsetDims := [0]
  collapsedSliceDims := [1]
  operandBatchingDims := []
  startIndicesBatchingDims := []
  startIndexMap := [1]
  indexVectorDim := 1
  sliceSizes := ![128, 1]
  wf := gather_S128x10000_S262144x1_S128x262144_0_1_n_n_1_1_1281_wf

class Facts : Prop extends Facts₀ where

variable [Facts]
-- ==== Proof.PreFacts.lean ====
/-
  What the precondition says of the inputs the proof uses.

  The precondition is one bit: the conjunction, over the float inputs, of "every entry's absolute value is below
  +inf", and of "every label is at least 0" and "every label is below 10000" (signed). When the bit is 1, every
  entry of the embedding table is a real number, and every label read as a signed integer lies in [0, 10000).
-/
import proofs.«425105_j69277822484525_2_alg».proof.Pre_finite_inputs
import Idealize.ShloMosaic.PureOps.Ideal
import Idealize.ShloMosaic.Lib.ValueIdx
import Idealize.ShloMosaic.Lib.ReduceAll

noncomputable section

namespace Cert.PreFacts

open Idealize.ShloMosaic Idealize.ShloMosaic.ValueIdx Cert.Pre_finite_inputs

variable [Cert.Pre_finite_inputs.Facts]

/-- The rank-0 shape has exactly one index: a function out of the empty set of axes. -/
instance : Subsingleton S_.Idx := ⟨fun a b => funext fun d => d.elim0⟩

/-- The and of two arrays of words, read at an index, is the and of the two words there. -/
theorem andi_at {s : Shape} {w : Nat} (x y : IVec s w) (i : s.Idx) : andi x y i = IntOp.andi (x i) (y i) := rfl

/-- The f32 pattern 0x7F800000 (sign 0, exponent all ones, fraction 0) denotes +∞. -/
theorem inf_bits : Ideal.ofBits .f32 0x7F800000#32 = (⊤ : EReal) := by
  simp [Ideal.ofBits, Ideal.ieee]

/-- An extended real x with max x (−x) < +∞ is neither +∞ (then the max is +∞) nor −∞ (then −x = +∞ and the max
    is +∞ again): it is a real number. -/
theorem real_of_abs_lt_inf (x : EReal)
    (hx : Ideal.cmp .olt (max x (-x)) (Ideal.ofBits .f32 0x7F800000#32) = 1#1) : ∃ r : ℝ, x = (r : EReal) := by
  rw [inf_bits] at hx
  induction x using EReal.rec with
  | bot => simp [Ideal.cmp] at hx
  | top => simp [Ideal.cmp] at hx
  | coe r => exact ⟨r, rfl⟩

theorem of_pre (a0 : FVec Ideal S262144x512 .f32) (a1 : IVec S262144 32) (a2 : FVec Ideal S128x512 .f32) (a3 : FVec Ideal S128 .f32)
    (a4 : FVec Ideal S128x512 .f32) (a5 : FVec Ideal S128 .f32) (a6 : FVec Ideal S128x10000 .f32) (a7 : FVec Ideal S128 .f32)
    (h : fn (F := Ideal) a0 a1 a2 a3 a4 a5 a6 a7 = fun _ => 1#1) :
    (∀ i : S128x10000.Idx, ∃ r : ℝ, a6 i = (r : EReal))
      ∧ (∀ p : Fin 262144, 0 ≤ (a1 (ix1 p)).toInt ∧ (a1 (ix1 p)).toInt < 10000) := by
  -- The one bit of the predicate, with the chain of lets opened: a nest of ands of nine all-reductions.
  have h0 := congrFun h ValueIdx.ix0
  dsimp only [fn, fn_part1, fn_part2] at h0
  -- An and of bits is 1 exactly when both are: keep the table's conjunct and the two label conjuncts.
  simp only [andi_at, IntOp.andi_eq_one] at h0
  obtain ⟨⟨⟨⟨-, h6⟩, -⟩, hge⟩, hlt⟩ := h0
  refine ⟨fun i => ?_, fun p => ⟨?_, ?_⟩⟩
  · -- An all-reduction that is 1 had a 1 at every index: |a6 i| < +∞ there.
    have e := Host.reduce_andi_all _ _ _ _ _ h6 i
    exact real_of_abs_lt_inf (a6 i) e
  · -- 0 ≤ label p: the signed compare "label ≥ 0" is 1 at p, and the word 0 reads 0.
    have e := Host.reduce_andi_all _ _ _ _ _ hge (ix1 p)
    have e' : IntOp.cmpi .sge (a1 (ix1 p)) (0#32) = 1#1 := e
    have := IntOp.cmpi_sge.1 e'
    rwa [show (0#32 : BitVec 32).toInt = 0 from by decide] at this
  · -- label p < 10000: the signed compare "label < 10000" is 1 at p, and the word 10000 reads 10000.
    have e := Host.reduce_andi_all _ _ _ _ _ hlt (ix1 p)
    have e' : IntOp.cmpi .slt (a1 (ix1 p)) (10000#32) = 1#1 := e
    have := IntOp.cmpi_slt.1 e'
    rwa [show (10000#32 : BitVec 32).toInt = 10000 from by decide] at this

end Cert.PreFacts

end
-- ==== Proof.KAcc.lean ====
/-
  The accumulator of the embedding head, as a recursion over the loop's trips.

  The body zeroes a 1024 × 128 scratch block, then runs eight trips; trip k loads rows 1280·k … 1280·k + 1279 of the
  resident table (`tblk`) and adds to the scratch the trip's contribution, a function (`k0_pay5`) of the labels, the
  trip, that block of the table and the scratch as the trip finds it. `acc n` is the scratch after n trips.
-/
import proofs.«425105_j69277822484525_2_alg».proof.Proof.Gen.KernelIdeal.Skeleton
import Idealize.ShloMosaic.Lib.Pipeline.FrameBody

noncomputable section

namespace Cert.KernelIdeal.KAcc

open Idealize.ShloMosaic Cert.KernelIdeal Cert.KernelIdeal.Gen

variable {F : FTy → Type} [FloatOps F]

/-- The table's rows of trip `k`: 1280 consecutive rows from the trip's offset. -/
def tblk (x4 : Vec F S10240x256 .bf16) (k : Fin k0_t1_loop.trips) : Vec F S1280x256 .bf16 :=
  View.ld x4 (Rect.unit (s := S10240x256) (k0_off1 k) S1280x256.size (Facts₀.k0_off1_inb k))

/-- The scratch after `n` trips (after the last trip it stays). -/
def acc (x0 : Vec F S1x1024 .i32) (x4 : Vec F S10240x256 .bf16) : ℕ → Vec F S1024x128 .f32
  | 0 => k0_pay4 (F := F)
  | n + 1 => if h : n < k0_t1_loop.trips then k0_pay5 x0 ⟨n, h⟩ (tblk x4 ⟨n, h⟩) (acc x0 x4 n) else acc x0 x4 n

theorem acc_zero (x0 : Vec F S1x1024 .i32) (x4 : Vec F S10240x256 .bf16) : acc x0 x4 0 = k0_pay4 (F := F) := rfl

theorem acc_succ (x0 : Vec F S1x1024 .i32) (x4 : Vec F S10240x256 .bf16) (k : Fin k0_t1_loop.trips) :
    acc x0 x4 (k.val + 1) = k0_pay5 x0 k (tblk x4 k) (acc x0 x4 k.val) := by
  rw [acc, dif_pos k.isLt]

end Cert.KernelIdeal.KAcc

end
-- ==== Proof.KPieces.lean ====
/-
  What the body leaves in each output's block, as a function of the blocks it loads.

  The first two outputs are each stored once, whole: the dense heads' two halves. The third is stored once, whole,
  after the loop: the bias added to the scratch, which by then holds the accumulator after all the trips. Each trip
  stores the scratch once, whole, with its contribution added to what it found there; so the scratch after the
  trips, read back, is the recursion `KAcc.acc` at the trip count, by induction on the trips.
-/
import proofs.«425105_j69277822484525_2_alg».proof.Proof.Gen.KernelIdeal.Frame
import proofs.«425105_j69277822484525_2_alg».proof.Proof.KAcc
import Idealize.ShloMosaic.Lib.Pipeline.Value

set_option maxRecDepth 16384

noncomputable section

namespace Cert.KernelIdeal.KPieces

open Idealize.ShloMosaic Idealize.ShloMosaic.TcCoe Idealize.ShloMosaic.Tactic Idealize.SL.Sem Cert.KernelIdeal Cert.KernelIdeal.Gen
open Cert.KernelIdeal.KAcc

variable {F : FTy → Type} [FloatOps F]

/-- The stores' offsets are the origin. -/
theorem hz2 : (![0, 0] : Fin 2 → Nat) = fun _ => 0 := by
  funext a; match a with | ⟨0, _⟩ => rfl | ⟨1, _⟩ => rfl

/-- One whole-block store, read back, is its payload, whatever was there. -/
theorem read_writes_whole {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-- The first output's block: the dense heads' columns 0 … 127. -/
theorem out6_eq (c : Dev nD) (i : grid0.Coords) (arg1 : Memref sig .tc .vmem S1x1024 .i32) (harg1 : arg1.IsWhole) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S10240x256 .bf16) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (x0 : Vec F S1x1024 .i32) (x1 : Vec F S1024x512 .f32) (x2 : Vec F S512x256 .bf16) (x3 : Vec F S1x256 .f32) (x4 : Vec F S10240x256 .bf16) (x5 : Vec F S1x128 .f32) : out0_A_6 c i arg1 harg1 arg2 harg2 arg3 harg3 arg4 harg4 arg5 harg5 arg6 harg6 arg7 harg7 arg8 harg8 arg9 harg9 arg10 harg10 x0 x1 x2 x3 x4 x5 = k0_pay2 x1 x2 x3 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz2]
  simp only [View.readAt_eq_ld, harg2.read_unread, harg3.read_unread, harg4.read_unread, View.ld_unit_zero (S := S1024x512) hz2,
    View.ld_unit_zero (S := S512x256) hz2, View.ld_unit_zero (S := S1x256) hz2]

/-- The second output's block: the dense heads' columns 128 … 255. -/
theorem out7_eq (c : Dev nD) (i : grid0.Coords) (arg1 : Memref sig .tc .vmem S1x1024 .i32) (harg1 : arg1.IsWhole) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S10240x256 .bf16) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (x0 : Vec F S1x1024 .i32) (x1 : Vec F S1024x512 .f32) (x2 : Vec F S512x256 .bf16) (x3 : Vec F S1x256 .f32) (x4 : Vec F S10240x256 .bf16) (x5 : Vec F S1x128 .f32) : out0_A_7 c i arg1 harg1 arg2 harg2 arg3 harg3 arg4 harg4 arg5 harg5 arg6 harg6 arg7 harg7 arg8 harg8 arg9 harg9 arg10 harg10 x0 x1 x2 x3 x4 x5 = k0_pay3 x1 x2 x3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz2]
  simp only [View.readAt_eq_ld, harg2.read_unread, harg3.read_unread, harg4.read_unread, View.ld_unit_zero (S := S1024x512) hz2,
    View.ld_unit_zero (S := S512x256) hz2, View.ld_unit_zero (S := S1x256) hz2]

/-- One trip's one piece: the scratch stored whole, the trip's contribution added to what the trip found in it. -/
theorem tripL_eq (𝒱 : Variants) (c : Dev nD) (bd : Option 𝒱.V) (i : grid0.Coords) (arg1 : Memref sig .tc .vmem S1x1024 .i32) (harg1 : arg1.IsWhole) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S10240x256 .bf16) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (v13 : Vec F S1x1024 .i32) (X_arg5 : BufTy.Contents (Elt F) arg5.view.ty) (k : Fin k0_t1_loop.trips) (f : BufTy.Contents (Elt F) arg10.view.ty) :
    tripL_k0_t1 (F := F) 𝒱 c bd i arg1 harg1 arg2 harg2 arg3 harg3 arg4 harg4 arg5 harg5 arg6 harg6 arg7 harg7 arg8 harg8 arg9 harg9 arg10 harg10 v13 X_arg5 k f
      = [⟨Rect.unit (s := S1024x128) ![0, 0] S1024x128.size Facts₀.inb_S1024x128_S1024x128_0_0,
          k0_pay5 v13 k
            (View.readAt (Elt F) arg5.view (Rect.unit (s := S10240x256) (k0_off1 k) S1280x256.size (Facts₀.k0_off1_inb k)).toLoadRect X_arg5)
            (View.readAt (Elt F) arg10.view (Rect.unit (s := S1024x128) ![0, 0] S1024x128.size Facts₀.inb_S1024x128_S1024x128_0_0).toLoadRect f)⟩] := by
  unfold tripL_k0_t1 trip_k0_t1
  rfl

/-- The scratch after `n` trips, read back: the recursion at `n`. -/
theorem scratch_eq (𝒱 : Variants) (c : Dev nD) (bd : Option 𝒱.V) (i : grid0.Coords) (arg1 : Memref sig .tc .vmem S1x1024 .i32) (harg1 : arg1.IsWhole) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S10240x256 .bf16) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole)
    (x0 : Vec F S1x1024 .i32) (x4 : Vec F S10240x256 .bf16) (G : BufTy.Contents (Elt F) arg10.view.ty)
    (hG : arg10.view.read (Elt F) G = k0_pay4 (F := F)) (n : ℕ) (hn : n ≤ k0_t1_loop.trips) :
    arg10.view.read (Elt F) (arg10.view.writes (Elt F) G
        (pb_k0_t1 (F := F) 𝒱 c bd i arg1 harg1 arg2 harg2 arg3 harg3 arg4 harg4 arg5 harg5 arg6 harg6 arg7 harg7 arg8 harg8 arg9 harg9 arg10 harg10 x0 (harg5.unread x4) G n))
      = acc x0 x4 n := by
  induction n with
  | zero => rw [pb_k0_t1.eq_1, View.writes_nil, hG]; rfl
  | succ n ih =>
    have hlt : n < k0_t1_loop.trips := hn
    have e := pb_k0_t1_succ (F := F) 𝒱 c bd i arg1 harg1 arg2 harg2 arg3 harg3 arg4 harg4 arg5 harg5 arg6 harg6 arg7 harg7 arg8 harg8 arg9 harg9 arg10 harg10 x0 (harg5.unread x4) G ⟨n, hlt⟩
    rw [show n + 1 = (⟨n, hlt⟩ : Fin k0_t1_loop.trips).val + 1 from rfl, e, View.writes_append, tripL_eq, read_writes_whole _ _ hz2,
      acc_succ x0 x4 ⟨n, hlt⟩]
    refine congrArg₂ (k0_pay5 x0 ⟨n, hlt⟩) ?_ ?_
    · rw [View.readAt_eq_ld, harg5.read_unread]; rfl
    · rw [View.readAt_eq_ld, View.ld_unit_zero (S := S1024x128) hz2]
      exact ih (Nat.le_of_lt hlt)

/-- The third output's block: the bias added to the accumulator after all the trips. -/
theorem out8_eq (c : Dev nD) (i : grid0.Coords) (arg1 : Memref sig .tc .vmem S1x1024 .i32) (harg1 : arg1.IsWhole) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S10240x256 .bf16) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (x0 : Vec F S1x1024 .i32) (x1 : Vec F S1024x512 .f32) (x2 : Vec F S512x256 .bf16) (x3 : Vec F S1x256 .f32) (x4 : Vec F S10240x256 .bf16) (x5 : Vec F S1x128 .f32) : out0_A_8 c i arg1 harg1 arg2 harg2 arg3 harg3 arg4 harg4 arg5 harg5 arg6 harg6 arg7 harg7 arg8 harg8 arg9 harg9 arg10 harg10 x0 x1 x2 x3 x4 x5 = k0_pay6 (acc x0 x4 k0_t1_loop.trips) x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz2]
  simp only [View.readAt_eq_ld, harg1.read_unread, harg6.read_unread, View.ld_unit_zero (S := S1x1024) hz2,
    View.ld_unit_zero (S := S1x128) hz2, View.ld_unit_zero (S := S1024x128) hz2]
  rw [View.writes_append]
  refine congrArg (fun a => k0_pay6 a x5) ?_
  exact scratch_eq Variants.none c none i arg1 harg1 arg2 harg2 arg3 harg3 arg4 harg4 arg5 harg5 arg6 harg6 arg7 harg7 arg8 harg8 arg9 harg9 arg10 harg10 x0 x4 _
    (read_writes_whole _ _ hz2 _ _) _ (Nat.le_refl _)

end Cert.KernelIdeal.KPieces

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.KDense.lean ====
/-
  The dense heads' stored values at an index.

  Before the body slices it, the value is one 1024 × 256 block: row p of the input block against column n of the
  concatenated, transposed weights, plus entry n of the concatenated bias. The first stored block is its columns
  0 … 127, the second its columns 128 … 255.
-/
import proofs.«425105_j69277822484525_2_alg».proof.Proof.Gen.KernelIdeal.Skeleton
import proofs.«425105_j69277822484525_2_alg».proof.Proof.LibDot
import Idealize.ShloMosaic.Lib.Pipeline.Value
import Idealize.ShloMosaic.Lib.ValueLayout
import Idealize.ShloMosaic.Lib.ValueIdx

noncomputable section

namespace Cert.KernelIdeal.KDense

open Idealize.ShloMosaic Idealize.ShloMosaic.ValueIdx Cert.KernelIdeal Cert.KernelIdeal.Gen

/-- The unsliced block at row `p`, column `n`: the sum over `k` of x (p, k) · w (k, n), plus the bias's entry `n`. -/
theorem pay1_apply (v0 : Vec Ideal S1024x512 .f32) (v2 : Vec Ideal S512x256 .bf16) (v5 : Vec Ideal S1x256 .f32)
    (p : Fin 1024) (n : Fin 256) :
    k0_pay1 (F := Ideal) v0 v2 v5 (ix2 p n) = (∑ k : Fin 512, v0 (ix2 p k) * v2 (ix2 k n)) + v5 (ix2 (0 : Fin 1) n) := by
  unfold k0_pay1
  rw [addf_apply]
  refine congrArg₂ (· + ·) ?_ ?_
  · refine (Cert.LibDot.matmul_plain_apply dot_S1024x512_S512x256_S1024x256_1_0_0_1_n_n rfl rfl rfl rfl rfl rfl none _ _ p n).trans ?_
    refine Finset.sum_congr rfl fun k _ => ?_
    rw [shapeCast_self]
    rfl
  · rw [shapeCast_self]
    exact broadcastTo_1b_ab_apply v5 _ p n

/-- The first stored block: columns 0 … 127 of the unsliced one. -/
theorem pay2_apply (v0 : Vec Ideal S1024x512 .f32) (v2 : Vec Ideal S512x256 .bf16) (v5 : Vec Ideal S1x256 .f32)
    (p : Fin 1024) (l : Fin 128) :
    k0_pay2 (F := Ideal) v0 v2 v5 (ix2 p l)
      = (∑ k : Fin 512, v0 (ix2 p k) * v2 (ix2 k (⟨l.val, by omega⟩ : Fin 256))) + v5 (ix2 (0 : Fin 1) (⟨l.val, by omega⟩ : Fin 256)) := by
  unfold k0_pay2
  refine (slice2_axis1_apply 0 (k0_pay1 (F := Ideal) v0 v2 v5) _ p l (⟨l.val, by omega⟩ : Fin 256) (Nat.zero_add _).symm).trans ?_
  exact pay1_apply v0 v2 v5 p _

/-- The second stored block: columns 128 … 255 of the unsliced one. -/
theorem pay3_apply (v0 : Vec Ideal S1024x512 .f32) (v2 : Vec Ideal S512x256 .bf16) (v5 : Vec Ideal S1x256 .f32)
    (p : Fin 1024) (l : Fin 128) :
    k0_pay3 (F := Ideal) v0 v2 v5 (ix2 p l)
      = (∑ k : Fin 512, v0 (ix2 p k) * v2 (ix2 k (⟨128 + l.val, by omega⟩ : Fin 256))) + v5 (ix2 (0 : Fin 1) (⟨128 + l.val, by omega⟩ : Fin 256)) := by
  unfold k0_pay3
  refine (slice2_axis1_apply 128 (k0_pay1 (F := Ideal) v0 v2 v5) _ p l (⟨128 + l.val, by omega⟩ : Fin 256) rfl).trans ?_
  exact pay1_apply v0 v2 v5 p _

end Cert.KernelIdeal.KDense

end
-- ==== Proof.LibOneHot.lean ====
/-
  A table lookup written as a product with a one-hot row.

  Row `w` of a table with `n` rows, for a 32-bit word `w` below `n`, is the sum over all rows `q` of the row times
  the indicator `[q = w]`, the indicator being the comparison bit widened to 32 bits and converted to a float
  (`1` or `0` exactly). On the extended reals `0 · x = 0` and `1 · x = x` whatever `x` is, so nothing is asked of
  the table's entries.
-/
import Idealize.ShloMosaic.PureOps.Ideal
import Mathlib.Algebra.BigOperators.Fin

noncomputable section

namespace Cert.LibOneHot

open Idealize.ShloMosaic

/-- The indicator bit as a float: one where the words agree. -/
theorem indicator_eq (x w : BitVec 32) (h : x = w) :
    FloatOps.sitofp (F := Ideal) .f32 ((IntOp.cmpi .eq x w).setWidth 32) = 1 := by
  subst h
  show (((((IntOp.cmpi .eq x x).setWidth 32).toInt : ℝ)) : EReal) = 1
  have : (IntOp.cmpi .eq x x).setWidth 32 = 1#32 := by
    unfold IntOp.cmpi; simp
  rw [this]; norm_num

/-- … and zero where they differ. -/
theorem indicator_ne (x w : BitVec 32) (h : x ≠ w) :
    FloatOps.sitofp (F := Ideal) .f32 ((IntOp.cmpi .eq x w).setWidth 32) = 0 := by
  show (((((IntOp.cmpi .eq x w).setWidth 32).toInt : ℝ)) : EReal) = 0
  have hb : (x == w) = false := by simpa using h
  have : (IntOp.cmpi .eq x w).setWidth 32 = 0#32 := by
    unfold IntOp.cmpi; rw [hb]; rfl
  rw [this]; norm_num

/-- The product with the one-hot row picks the row. -/
theorem sum_onehot {n : Nat} (hn : n ≤ 2 ^ 32) (w : BitVec 32) (hw : w.toNat < n) (g : Fin n → EReal) :
    ∑ q : Fin n, FloatOps.sitofp (F := Ideal) .f32 ((IntOp.cmpi .eq (BitVec.ofNat 32 q.val) w).setWidth 32) * g q
      = g ⟨w.toNat, hw⟩ := by
  rw [Finset.sum_eq_single (⟨w.toNat, hw⟩ : Fin n)]
  · rw [indicator_eq _ _ (by simp), one_mul]
  · intro q _ hq
    rw [indicator_ne _ _ ?_, zero_mul]
    intro h
    apply hq
    apply Fin.ext
    have := congrArg BitVec.toNat h
    simp only [BitVec.toNat_ofNat] at this
    rw [Nat.mod_eq_of_lt (lt_of_lt_of_le q.isLt hn)] at this
    exact this
  · intro h; exact absurd (Finset.mem_univ _) h

end Cert.LibOneHot

end
-- ==== Proof.LibSumBlocks.lean ====
/-
  A sum over `p·q` consecutive numbers is the sum over `p` blocks of the sums over the `q` numbers of each block.
-/
import Mathlib.Algebra.BigOperators.Fin
import Mathlib.Logic.Equiv.Fin.Basic

namespace Cert.LibSumBlocks

/-- The numbers below `p·q`, block by block: number `t·q + r` is entry `r` of block `t`. -/
theorem sum_fin_mul {M : Type*} [AddCommMonoid M] (p q : ℕ) (R : ℕ → M) :
    ∑ b : Fin (p * q), R b.val = ∑ t ∈ Finset.range p, ∑ r : Fin q, R (t * q + r.val) := by
  rw [Finset.sum_range, ← Equiv.sum_comp finProdFinEquiv, Fintype.sum_prod_type]
  refine Finset.sum_congr rfl fun t _ => Finset.sum_congr rfl fun r _ => ?_
  refine congrArg R ?_
  rw [finProdFinEquiv_apply_val, Nat.mul_comm, Nat.add_comm]

end Cert.LibSumBlocks
-- ==== Proof.LibColumn.lean ====
/-
  Two layout readings for a vector used as a COLUMN: a length-`a` vector cast to shape `[a, 1]`, and an `[a, 1]`
  column broadcast along a second axis to `[a, b]`. Both read, at `(i, ·)`, the vector's entry `i`: the cast
  because row-major position `i · 1 + 0` is `i`, the broadcast because the unit axis is pinned at `0` and the
  long axis is carried over.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- A length-`a` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Together: a vector laid along the rows of an `[a, b]` array reads, at `(p, c)`, the vector at `p`. -/
theorem column_of_vector_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibColumn

end
-- ==== Proof.KEmbed.lean ====
/-
  The embedding head's stored value at an index.

  Trip k of the loop builds a 1024 × 1280 one-hot block — entry (p, q) is 1 where row k·1280 + q of the table is the
  label of row p, else 0 —, multiplies it with the trip's 1280 table rows, and adds the product's columns l and
  128 + l to the accumulator. Over the eight trips the accumulator at (p, l) is therefore the sum, over ALL 10240 table
  rows v, of [v = label p] · table (v, l), plus the same for column 128 + l: on the extended reals 0 · x = 0 and
  1 · x = x for every x, so that is the table's row at the label, columns l and 128 + l. The body then adds the bias.
-/
import proofs.«425105_j69277822484525_2_alg».proof.Proof.KAcc
import proofs.«425105_j69277822484525_2_alg».proof.Proof.LibDot
import proofs.«425105_j69277822484525_2_alg».proof.Proof.LibOneHot
import proofs.«425105_j69277822484525_2_alg».proof.Proof.LibSumBlocks
import proofs.«425105_j69277822484525_2_alg».proof.Proof.LibColumn
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.KEmbed

open Idealize.ShloMosaic Idealize.ShloMosaic.ValueIdx Cert.KernelIdeal Cert.KernelIdeal.Gen Cert.KernelIdeal.KAcc

/-- "Table row `v` is the label `w`", as a float: 1 or 0. -/
def ind (w : BitVec 32) (v : ℕ) : EReal :=
  FloatOps.sitofp (F := Ideal) .f32 ((IntOp.cmpi .eq (BitVec.ofNat 32 v) w).setWidth 32)

/-- Column `l` of the table's first half, and of its second half. -/
def lo (l : Fin 128) : Fin 256 := ⟨l.val, by omega⟩
def hi (l : Fin 128) : Fin 256 := ⟨128 + l.val, by omega⟩

theorem trips_eq : k0_t1_loop.trips = 8 := by decide

/-- The first table row of trip `k`, as the body computes the word. -/
def tripWord (k : Fin k0_t1_loop.trips) : BitVec 32 :=
  Scalar.muli (Scalar.addi 0#32 (Scalar.muli (Scf.iv 0#32 1#32 k) 1#32)) 1280#32

theorem tripWord_eq : ∀ k : Fin k0_t1_loop.trips, tripWord k = BitVec.ofNat 32 (k.val * 1280) := by decide

/-- The zeroed scratch. -/
theorem pay4_apply (j : S1024x128.Idx) : k0_pay4 (F := Ideal) j = 0 := by
  unfold k0_pay4
  rw [shapeCast_self]
  exact Ideal.ofBits_zero_f32

/-- The last store: the accumulator plus the bias's entry. -/
theorem pay6_apply (v21 : Vec Ideal S1024x128 .f32) (v22 : Vec Ideal S1x128 .f32) (p : Fin 1024) (l : Fin 128) :
    k0_pay6 (F := Ideal) v21 v22 (ix2 p l) = v21 (ix2 p l) + v22 (ix2 (0 : Fin 1) l) := by
  unfold k0_pay6
  rw [addf_apply, shapeCast_self]
  exact congrArg (v21 (ix2 p l) + ·) (broadcastTo_1b_ab_apply v22 _ p l)

/-- Trip `k`'s one-hot block. -/
def hot (v13 : Vec Ideal S1x1024 .i32) (k : Fin k0_t1_loop.trips) : FVec Ideal S1024x1280 .bf16 :=
  truncf .bf16 (sitofp .f32 (extui 32 (cmpi .eq (addi (iota .tc S1024x1280 32 [1] iota_S1024x1280_d1_w32) (broadcast S1024x1280 (tripWord k)))
    (broadcastTo S1024x1280 (transpose S1024x1 [1, 0] (shapeCast S1x1024 v13 shapeCasts_S1x1024_S1x1024) transposes_S1x1024_p1_0_S1024x1)
      broadcasts_S1024x1_S1024x1280)) natLt_1_32)) bitsLt_bf16_f32

/-- Its entry (p, q): whether table row k·1280 + q is row p's label. -/
theorem hot_apply (v13 : Vec Ideal S1x1024 .i32) (k : Fin k0_t1_loop.trips) (p : Fin 1024) (q : Fin 1280) :
    hot v13 k (ix2 p q) = ind (v13 (ix2 (0 : Fin 1) p)) (k.val * 1280 + q.val) := by
  unfold hot ind
  show FloatOps.sitofp (F := Ideal) .f32 ((IntOp.cmpi .eq
      (IntOp.addi (iota .tc S1024x1280 32 [1] iota_S1024x1280_d1_w32 (ix2 p q)) (tripWord k))
      (broadcastTo S1024x1280 (transpose S1024x1 [1, 0] (shapeCast S1x1024 v13 shapeCasts_S1x1024_S1x1024) transposes_S1x1024_p1_0_S1024x1)
        broadcasts_S1024x1_S1024x1280 (ix2 p q))).setWidth 32) = _
  rw [iota_single_apply, Cert.LibColumn.broadcastTo_a1_ab_apply, transpose_ix2_apply, shapeCast_self, tripWord_eq]
  show FloatOps.sitofp (F := Ideal) .f32 ((IntOp.cmpi .eq (BitVec.ofNat 32 q.val + BitVec.ofNat 32 (k.val * 1280)) (v13 (ix2 (0 : Fin 1) p))).setWidth 32) = _
  rw [← BitVec.ofNat_add, Nat.add_comm]

/-- Trip `k`'s product: the one-hot block against the trip's table rows. -/
def prod (v13 : Vec Ideal S1x1024 .i32) (k : Fin k0_t1_loop.trips) (v40 : FVec Ideal S1280x256 .bf16) : FVec Ideal S1024x256 .f32 :=
  matmul dot_S1024x1280_S1280x256_S1024x256_1_0_0_1_n_n none (hot v13 k) v40 (constant S1024x256 .f32 0x00000000#32)

/-- Its entry (p, n): the one-hot row of p against column n of the trip's rows. -/
theorem prod_apply (v13 : Vec Ideal S1x1024 .i32) (k : Fin k0_t1_loop.trips) (v40 : FVec Ideal S1280x256 .bf16) (p : Fin 1024) (n : Fin 256) :
    prod v13 k v40 (ix2 p n) = ∑ q : Fin 1280, ind (v13 (ix2 (0 : Fin 1) p)) (k.val * 1280 + q.val) * v40 (ix2 q n) := by
  unfold prod
  refine (Cert.LibDot.matmul_plain_apply dot_S1024x1280_S1280x256_S1024x256_1_0_0_1_n_n rfl rfl rfl rfl rfl rfl none (hot v13 k) v40 p n).trans ?_
  exact Finset.sum_congr rfl fun q _ => congrArg (· * v40 (ix2 q n)) (hot_apply v13 k p q)

/-- A trip's stored value: what it found, plus the product's columns l and 128 + l. -/
theorem pay5_eq (v13 : Vec Ideal S1x1024 .i32) (k : Fin k0_t1_loop.trips) (v40 : FVec Ideal S1280x256 .bf16) (v43 : FVec Ideal S1024x128 .f32) :
    k0_pay5 (F := Ideal) v13 k v40 v43
      = addf v43 (addf (extractStridedSlice S1024x128 ![0, 0] (prod v13 k v40) slices_S1024x256_o0_0_S1024x128)
          (extractStridedSlice S1024x128 ![0, 128] (prod v13 k v40) slices_S1024x256_o0_128_S1024x128)) := by
  unfold k0_pay5 prod hot tripWord
  simp only [shapeCast_self]

/-- A trip's stored value at (p, l): what it found, plus the one-hot row against the trip's table rows, columns l and 128 + l. -/
theorem pay5_apply (v13 : Vec Ideal S1x1024 .i32) (k : Fin k0_t1_loop.trips) (v40 : FVec Ideal S1280x256 .bf16) (v43 : FVec Ideal S1024x128 .f32)
    (p : Fin 1024) (l : Fin 128) :
    k0_pay5 (F := Ideal) v13 k v40 v43 (ix2 p l)
      = v43 (ix2 p l)
        + ((∑ q : Fin 1280, ind (v13 (ix2 (0 : Fin 1) p)) (k.val * 1280 + q.val) * v40 (ix2 q (lo l)))
          + (∑ q : Fin 1280, ind (v13 (ix2 (0 : Fin 1) p)) (k.val * 1280 + q.val) * v40 (ix2 q (hi l)))) := by
  rw [pay5_eq, addf_apply, addf_apply]
  refine congrArg (v43 (ix2 p l) + ·) ?_
  refine congrArg₂ (· + ·) ?_ ?_
  · exact (slice2_axis1_apply 0 (prod v13 k v40) slices_S1024x256_o0_0_S1024x128 p l (lo l) (Nat.zero_add _).symm).trans
      (prod_apply v13 k v40 p _)
  · exact (slice2_axis1_apply 128 (prod v13 k v40) slices_S1024x256_o0_128_S1024x128 p l (hi l) rfl).trans
      (prod_apply v13 k v40 p _)

/-- The table's entry at a row number (0 past the end, which no sum below reaches). -/
def tab (x4 : FVec Ideal S10240x256 .bf16) (n : Fin 256) (v : ℕ) : EReal :=
  if h : v < 10240 then x4 (ix2 (⟨v, h⟩ : Fin 10240) n) else 0

/-- Row q of trip k's block is table row k·1280 + q. -/
theorem tblk_apply (x4 : Vec Ideal S10240x256 .bf16) (k : Fin k0_t1_loop.trips) (q : Fin 1280) (n : Fin 256) :
    tblk x4 k (ix2 q n) = tab x4 n (k.val * 1280 + q.val) := by
  have hk : k.val < 8 := Nat.lt_of_lt_of_le k.isLt (Nat.le_of_eq trips_eq)
  have hq := q.isLt
  unfold tab
  rw [dif_pos (by omega)]
  unfold tblk
  show x4 ((Rect.unit (s := S10240x256) (k0_off1 k) S1280x256.size (Facts₀.k0_off1_inb k)).idx (ix2 q n)) = _
  refine congrArg x4 (funext fun a => Fin.ext ?_)
  have e := k0_off1_eq k
  match a with
  | ⟨0, _⟩ =>
    show k0_off1 k 0 + 1 * q.val = k.val * 1280 + q.val
    rw [e]
    show 1280 * k.val + 1 * q.val = _
    omega
  | ⟨1, _⟩ =>
    show k0_off1 k 1 + 1 * n.val = n.val
    rw [e]
    show 0 + 1 * n.val = _
    omega

/-- The accumulator after `n` trips at (p, l): the trips' one-hot row sums, columns l and 128 + l. -/
theorem acc_apply (x0 : Vec Ideal S1x1024 .i32) (x4 : Vec Ideal S10240x256 .bf16) (p : Fin 1024) (l : Fin 128) (n : ℕ)
    (hn : n ≤ k0_t1_loop.trips) :
    acc x0 x4 n (ix2 p l) = ∑ h ∈ Finset.range n,
      ((∑ q : Fin 1280, ind (x0 (ix2 (0 : Fin 1) p)) (h * 1280 + q.val) * tab x4 (lo l) (h * 1280 + q.val))
        + (∑ q : Fin 1280, ind (x0 (ix2 (0 : Fin 1) p)) (h * 1280 + q.val) * tab x4 (hi l) (h * 1280 + q.val))) := by
  induction n with
  | zero => rw [acc_zero, pay4_apply, Finset.sum_range_zero]
  | succ n ih =>
    have hlt : n < k0_t1_loop.trips := hn
    rw [show n + 1 = (⟨n, hlt⟩ : Fin k0_t1_loop.trips).val + 1 from rfl, acc_succ, pay5_apply, ih (Nat.le_of_lt hlt), Finset.sum_range_succ]
    refine congrArg (Finset.sum (Finset.range n) _ + ·) ?_
    refine congrArg₂ (· + ·) ?_ ?_
    · exact Finset.sum_congr rfl fun q _ => congrArg (ind (x0 (ix2 (0 : Fin 1) p)) (n * 1280 + q.val) * ·) (tblk_apply x4 ⟨n, hlt⟩ q (lo l))
    · exact Finset.sum_congr rfl fun q _ => congrArg (ind (x0 (ix2 (0 : Fin 1) p)) (n * 1280 + q.val) * ·) (tblk_apply x4 ⟨n, hlt⟩ q (hi l))

/-- One column over all the trips: the sum over all 10240 table rows against the one-hot row picks the label's row. -/
theorem rows (w : BitVec 32) (hw : w.toNat < 10240) (x4 : Vec Ideal S10240x256 .bf16) (n : Fin 256) :
    ∑ h ∈ Finset.range 8, ∑ q : Fin 1280, ind w (h * 1280 + q.val) * tab x4 n (h * 1280 + q.val)
      = x4 (ix2 (⟨w.toNat, hw⟩ : Fin 10240) n) := by
  rw [← Cert.LibSumBlocks.sum_fin_mul 8 1280 (fun v => ind w v * tab x4 n v)]
  refine (Cert.LibOneHot.sum_onehot (n := 8 * 1280) (by norm_num) w (by omega) (fun b => tab x4 n b.val)).trans ?_
  show tab x4 n w.toNat = _
  unfold tab
  rw [dif_pos hw]

/-- The accumulator after all the trips at (p, l): the table's row at the label, columns l and 128 + l. -/
theorem acc_final (x0 : Vec Ideal S1x1024 .i32) (x4 : Vec Ideal S10240x256 .bf16) (p : Fin 1024) (l : Fin 128)
    (hw : (x0 (ix2 (0 : Fin 1) p)).toNat < 10240) :
    acc x0 x4 k0_t1_loop.trips (ix2 p l)
      = x4 (ix2 (⟨(x0 (ix2 (0 : Fin 1) p)).toNat, hw⟩ : Fin 10240) (lo l)) + x4 (ix2 (⟨(x0 (ix2 (0 : Fin 1) p)).toNat, hw⟩ : Fin 10240) (hi l)) := by
  rw [acc_apply x0 x4 p l _ (Nat.le_refl _), trips_eq, Finset.sum_add_distrib]
  exact congrArg₂ (· + ·) (rows _ hw x4 (lo l)) (rows _ hw x4 (hi l))

/-- The third output's block at (p, l). -/
theorem embed_apply (x0 : Vec Ideal S1x1024 .i32) (x4 : Vec Ideal S10240x256 .bf16) (x5 : Vec Ideal S1x128 .f32) (p : Fin 1024) (l : Fin 128)
    (hw : (x0 (ix2 (0 : Fin 1) p)).toNat < 10240) :
    k0_pay6 (F := Ideal) (acc x0 x4 k0_t1_loop.trips) x5 (ix2 p l)
      = (x4 (ix2 (⟨(x0 (ix2 (0 : Fin 1) p)).toNat, hw⟩ : Fin 10240) (lo l)) + x4 (ix2 (⟨(x0 (ix2 (0 : Fin 1) p)).toNat, hw⟩ : Fin 10240) (hi l)))
        + x5 (ix2 (0 : Fin 1) l) := by
  rw [pay6_apply, acc_final x0 x4 p l hw]

end Cert.KernelIdeal.KEmbed

end
-- ==== Proof.Spec.lean ====
/-
  The three results as functions of the argument arrays, over the extended reals.

  A dense head at (p, l) is the sum over k of x (p, k) · W (l, k), plus the bias b l: row p of the input against
  row l of the weight. The embedding head at (p, l) is column `col (y p)` of the table's row l, plus the bias:
  the label word of row p read as a signed integer and clamped into the table's 10000 columns. `clipWord` is
  the same clamp done on the word itself (a signed maximum with 0, then a signed minimum with 9999).
-/
import Idealize.ShloMosaic.PureOps.Ideal
import Idealize.ShloMosaic.Lib.ValueIdx

noncomputable section

namespace Cert.Spec

open Idealize.ShloMosaic Idealize.ShloMosaic.ValueIdx

/-- A label word clamped into the table's columns, as a word. -/
def clipWord (w : BitVec 32) : BitVec 32 := IntOp.minsi 9999#32 (IntOp.maxsi 0#32 w)

/-- A label word read signed and clamped into the table's columns: a negative word names column 0, a word past the
    end the last column. -/
def col (w : BitVec 32) : Fin 10000 := ⟨min w.toInt.toNat 9999, by omega⟩

/-- A dense head at row `p`, output feature `l`. -/
def denseAt (x : FVec Ideal ⟨2, ![262144, 512]⟩ .f32) (W : FVec Ideal ⟨2, ![128, 512]⟩ .f32) (b : FVec Ideal ⟨1, ![128]⟩ .f32)
    (p : Fin 262144) (l : Fin 128) : EReal :=
  (∑ k : Fin 512, x (ix2 p k) * W (ix2 l k)) + b (ix1 l)

/-- A dense head, as an array. -/
def dense (x : FVec Ideal ⟨2, ![262144, 512]⟩ .f32) (W : FVec Ideal ⟨2, ![128, 512]⟩ .f32) (b : FVec Ideal ⟨1, ![128]⟩ .f32) :
    FVec Ideal ⟨2, ![262144, 128]⟩ .f32 :=
  fun i => denseAt x W b (i 0) (i 1)

/-- The embedding head at row `p`, output feature `l`. -/
def embedAt (y : IVec ⟨1, ![262144]⟩ 32) (W : FVec Ideal ⟨2, ![128, 10000]⟩ .f32) (b : FVec Ideal ⟨1, ![128]⟩ .f32)
    (p : Fin 262144) (l : Fin 128) : EReal :=
  W (ix2 l (col (y (ix1 p)))) + b (ix1 l)

/-- The embedding head, as an array. -/
def embed (y : IVec ⟨1, ![262144]⟩ 32) (W : FVec Ideal ⟨2, ![128, 10000]⟩ .f32) (b : FVec Ideal ⟨1, ![128]⟩ .f32) :
    FVec Ideal ⟨2, ![262144, 128]⟩ .f32 :=
  fun i => embedAt y W b (i 0) (i 1)

end Cert.Spec

end
-- ==== Proof.KHost.lean ====
/-
  What the kernel's windows find in their arrays when the region is entered: the host operations before the call,
  read at an index.

  Five arrays are prepared on the host. The two dense weights are stacked (256 rows), transposed to 512 x 256 and
  narrowed; the two dense biases are joined into one row of 256; the embedding table is padded with 240 zero columns,
  transposed to 10240 x 128, and split into a narrowed copy and the narrowed remainder, laid side by side (256 columns);
  the embedding bias becomes one row; and the labels are clamped into 0 … 9999 and become one row. Over the extended
  reals a change of float format is the identity, so the narrowed copy is the table itself and the remainder is the
  table minus itself.
-/
import proofs.«425105_j69277822484525_2_alg».proof.Proof.Gen.KernelIdeal.Frame.Runs
import proofs.«425105_j69277822484525_2_alg».proof.Proof.Spec
import Idealize.ShloMosaic.Lib.ValueLayout
import Idealize.ShloMosaic.Lib.KernelVsHost

noncomputable section

namespace Cert.KernelIdeal.KHost

open Idealize.ShloMosaic Idealize.ShloMosaic.ValueIdx Idealize.SL.Sem Cert.KernelIdeal Cert.KernelIdeal.Gen
open Idealize.ShloMosaic.StableHlo

variable (m : (ℓ : Loc nD τ sig) → Buf (Elt Ideal) ℓ)

/-- The table with its columns padded by zeros up to 10240 and transposed: row `v`, feature `l`. -/
def padW (W : FVec Ideal S128x10000 .f32) (v : Fin 10240) (l : Fin 128) : EReal :=
  if h : v.val < 10000 then W (ix2 l ⟨v.val, h⟩) else 0

/-! ## The clamp on a word

A signed maximum with 0 and then a signed minimum with 9999 leave a word between 0 and 9999, so its unsigned reading
is the clamped signed reading: 0 for a negative word, 9999 for a word past 9999, the word itself in between. -/

theorem clipWord_toNat (w : BitVec 32) : (Spec.clipWord w).toNat = (Spec.col w).val := by
  unfold Spec.clipWord Spec.col IntOp.minsi IntOp.maxsi
  have h0 : (0#32 : BitVec 32).toInt = 0 := by decide
  have h9 : (9999#32 : BitVec 32).toInt = 9999 := by decide
  have hw := BitVec.toInt_eq_toNat_cond w
  have hlt := w.isLt
  show (if BitVec.slt 9999#32 (if BitVec.slt w 0#32 then 0#32 else w) then 9999#32
        else (if BitVec.slt w 0#32 then 0#32 else w)).toNat = min w.toInt.toNat 9999
  by_cases h1 : w.toInt < 0
  · -- a negative word: the maximum is 0, which 9999 does not undercut
    have e1 : BitVec.slt w 0#32 = true := by rw [BitVec.slt_iff_toInt_lt, h0]; exact h1
    have e2 : BitVec.slt 9999#32 0#32 = false := by decide
    rw [e1]
    simp only [if_true]
    rw [e2]
    simp only [Bool.false_eq_true, if_false]
    show 0 = min w.toInt.toNat 9999
    omega
  · have e1 : BitVec.slt w 0#32 = false := by
      rw [Bool.eq_false_iff, Ne, BitVec.slt_iff_toInt_lt, h0]; exact h1
    rw [e1]
    simp only [Bool.false_eq_true, if_false]
    by_cases h2 : (9999 : Int) < w.toInt
    · -- a word past the last column
      have e2 : BitVec.slt 9999#32 w = true := by rw [BitVec.slt_iff_toInt_lt, h9]; exact h2
      rw [e2]
      simp only [if_true]
      show 9999 = min w.toInt.toNat 9999
      omega
    · -- a word in range: signed and unsigned readings agree
      have e2 : BitVec.slt 9999#32 w = false := by
        rw [Bool.eq_false_iff, Ne, BitVec.slt_iff_toInt_lt, h9]; exact h2
      rw [e2]
      simp only [Bool.false_eq_true, if_false]
      split at hw <;> omega

/-! ## The arrays as terms of the host operations -/

/-- The padded table transposed, as the host operations build it: rows are the 10240 padded columns. -/
def tblT (W : FVec Ideal S128x10000 .f32) : FVec Ideal S10240x128 .f32 :=
  transpose S10240x128 [1, 0]
    (pad S128x10240 ![0, 0] ![0, 240] ![0, 0] W (sitofp (F := Ideal) .f32 (constantI S_ 32 0#32))
      pads_S128x10000_S128x10240_000_02400 h_S_)
    transposes_S128x10240_S10240x128_1_0

/-- The labels' row: the clamp, word by word, then one leading unit axis. -/
theorem labels_eq (c : Dev nD) :
    (V (F := Ideal) m c main_v14 : IVec S1x262144 32)
      = shapeCast S1x262144
          (minsi (broadcastInDim S262144 ![] bcast_S_S262144 (constantI S_ 32 9999#32))
            (maxsi (broadcastInDim S262144 ![] bcast_S_S262144 (constantI S_ 32 0#32))
              (m ((c.tc : Thread nD τ).loc main_arg1) : IVec S262144 32)))
          shapeCasts_S262144_S1x262144 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The stacked dense weights, transposed and narrowed. -/
theorem wcat_eq (c : Dev nD) :
    (V (F := Ideal) m c main_v2 : FVec Ideal S512x256 .bf16)
      = truncf (F := Ideal) .bf16
          (transpose S512x256 [1, 0]
            (concatenate S256x512 0
              [⟨S128x512, (m ((c.tc : Thread nD τ).loc main_arg2) : FVec Ideal S128x512 .f32)⟩,
               ⟨S128x512, (m ((c.tc : Thread nD τ).loc main_arg4) : FVec Ideal S128x512 .f32)⟩]
              concatenates_S128x512_S128x512_S256x512_d0)
            transposes_S256x512_S512x256_1_0)
          bitsLt_bf16_f32 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results

/-- The two dense biases joined, as one row. -/
theorem bcat_eq (c : Dev nD) :
    (V (F := Ideal) m c main_v4 : FVec Ideal S1x256 .f32)
      = shapeCast S1x256
          (concatenate S256 0
            [⟨S128, (m ((c.tc : Thread nD τ).loc main_arg3) : FVec Ideal S128 .f32)⟩,
             ⟨S128, (m ((c.tc : Thread nD τ).loc main_arg5) : FVec Ideal S128 .f32)⟩]
            concatenates_S128_S128_S256_d0)
          shapeCasts_S256_S1x256 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The embedding bias as one row. -/
theorem bembed_eq (c : Dev nD) :
    (V (F := Ideal) m c main_v12 : FVec Ideal S1x128 .f32)
      = shapeCast S1x128 (m ((c.tc : Thread nD τ).loc main_arg7) : FVec Ideal S128 .f32) shapeCasts_S128_S1x128 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The table's two halves side by side: the narrowed transposed table, and the narrowed difference between the
    transposed table and its narrowed copy widened back. -/
theorem table_eq (c : Dev nD) :
    (V (F := Ideal) m c main_v11 : FVec Ideal S10240x256 .bf16)
      = concatenate S10240x256 1
          [⟨S10240x128, truncf .bf16 (tblT (m ((c.tc : Thread nD τ).loc main_arg6))) bitsLt_bf16_f32⟩,
           ⟨S10240x128, truncf .bf16
              (subf (tblT (m ((c.tc : Thread nD τ).loc main_arg6)))
                (extf .f32 (truncf .bf16 (tblT (m ((c.tc : Thread nD τ).loc main_arg6))) bitsLt_bf16_f32) bitsLt_bf16_f32))
              bitsLt_bf16_f32⟩]
          concatenates_S10240x128_S10240x128_S10240x256_d1 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-! ## The arrays read at an index -/

/-- The transposed padded table at row `v`, feature `l`: the table's entry when `v` is one of its 10000 columns, else
    the padding value, which is the integer 0 read as a float. -/
theorem tblT_apply (W : FVec Ideal S128x10000 .f32) (v : Fin 10240) (l : Fin 128) :
    tblT W (ix2 v l) = padW W v l := by
  unfold tblT padW
  refine (transpose_ix2_apply _ transposes_S128x10240_S10240x128_1_0 v l).trans ?_
  by_cases h : v.val < 10000
  · rw [dif_pos h]
    exact pad_apply_of_inside _ _ _ W _ pads_S128x10000_S128x10240_000_02400 h_S_ (ix2 l v) (ix2 l ⟨v.val, h⟩)
      (fun a => by
        match a with
        | ⟨0, _⟩ => show l.val = 0 + l.val * (0 + 1); omega
        | ⟨1, _⟩ => show v.val = 0 + v.val * (0 + 1); omega)
  · rw [dif_neg h]
    refine (pad_apply_of_not_inside _ _ _ W _ pads_S128x10000_S128x10240_000_02400 h_S_ (ix2 l v) (1 : Fin 2) ?_).trans ?_
    · intro hin
      have h3 : (v.val - 0) / (0 + 1) < 10000 := hin.2.2
      exact h (by omega)
    · show (((0#32 : BitVec 32).toInt : ℝ) : EReal) = 0
      have e0 : (0#32 : BitVec 32).toInt = 0 := by decide
      rw [e0, Int.cast_zero, EReal.coe_zero]

theorem V_labels (c : Dev nD) (p : Fin 262144) :
    (V (F := Ideal) m c main_v14 : IVec S1x262144 32) (ix2 0 p) = Spec.clipWord ((m ((c.tc : Thread nD τ).loc main_arg1) : IVec S262144 32) (ix1 p)) := by
  refine (congrFun (labels_eq m c) _).trans ?_
  refine (shapeCast_a_1a_apply _ shapeCasts_S262144_S1x262144 0 p).trans ?_
  rfl

theorem V_wcat_lo (c : Dev nD) (k : Fin 512) (l : Fin 128) :
    (V (F := Ideal) m c main_v2 : FVec Ideal S512x256 .bf16) (ix2 k ⟨l.val, by omega⟩) = (m ((c.tc : Thread nD τ).loc main_arg2) : FVec Ideal S128x512 .f32) (ix2 l k) := by
  refine (congrFun (wcat_eq m c) _).trans ?_
  refine (truncf_apply (ψ := .bf16) _ bitsLt_bf16_f32 _).trans ?_
  refine (transpose_ix2_apply _ transposes_S256x512_S512x256_1_0 k (⟨l.val, by omega⟩ : Fin 256)).trans ?_
  exact concatenate_pair_apply_left _ _ _ concatenates_S128x512_S128x512_S256x512_d0 _ rfl (ix2 l k)
    (fun b => by
      match b with
      | ⟨0, _⟩ => rfl
      | ⟨1, _⟩ => rfl)

theorem V_wcat_hi (c : Dev nD) (k : Fin 512) (l : Fin 128) :
    (V (F := Ideal) m c main_v2 : FVec Ideal S512x256 .bf16) (ix2 k ⟨128 + l.val, by omega⟩) = (m ((c.tc : Thread nD τ).loc main_arg4) : FVec Ideal S128x512 .f32) (ix2 l k) := by
  refine (congrFun (wcat_eq m c) _).trans ?_
  refine (truncf_apply (ψ := .bf16) _ bitsLt_bf16_f32 _).trans ?_
  refine (transpose_ix2_apply _ transposes_S256x512_S512x256_1_0 k (⟨128 + l.val, by omega⟩ : Fin 256)).trans ?_
  exact concatenate_pair_apply_right _ _ _ concatenates_S128x512_S128x512_S256x512_d0 _ rfl rfl (ix2 l k)
    (fun b hb => by
      match b with
      | ⟨0, _⟩ => exact absurd rfl hb
      | ⟨1, _⟩ => rfl)
    (by show l.val + 128 = 128 + l.val; omega)

theorem V_bcat_lo (c : Dev nD) (l : Fin 128) :
    (V (F := Ideal) m c main_v4 : FVec Ideal S1x256 .f32) (ix2 0 ⟨l.val, by omega⟩) = (m ((c.tc : Thread nD τ).loc main_arg3) : FVec Ideal S128 .f32) (ix1 l) := by
  refine (congrFun (bcat_eq m c) _).trans ?_
  refine (shapeCast_a_1a_apply _ shapeCasts_S256_S1x256 0 (⟨l.val, by omega⟩ : Fin 256)).trans ?_
  exact concatenate_pair_apply_left _ _ _ concatenates_S128_S128_S256_d0 _ rfl (ix1 l)
    (fun b => by
      match b with
      | ⟨0, _⟩ => rfl)

theorem V_bcat_hi (c : Dev nD) (l : Fin 128) :
    (V (F := Ideal) m c main_v4 : FVec Ideal S1x256 .f32) (ix2 0 ⟨128 + l.val, by omega⟩) = (m ((c.tc : Thread nD τ).loc main_arg5) : FVec Ideal S128 .f32) (ix1 l) := by
  refine (congrFun (bcat_eq m c) _).trans ?_
  refine (shapeCast_a_1a_apply _ shapeCasts_S256_S1x256 0 (⟨128 + l.val, by omega⟩ : Fin 256)).trans ?_
  exact concatenate_pair_apply_right _ _ _ concatenates_S128_S128_S256_d0 _ rfl rfl (ix1 l)
    (fun b hb => by
      match b with
      | ⟨0, _⟩ => exact absurd rfl hb)
    (by show l.val + 128 = 128 + l.val; omega)

theorem V_table_lo (c : Dev nD) (v : Fin 10240) (l : Fin 128) :
    (V (F := Ideal) m c main_v11 : FVec Ideal S10240x256 .bf16) (ix2 v ⟨l.val, by omega⟩) = padW (m ((c.tc : Thread nD τ).loc main_arg6)) v l := by
  refine (congrFun (table_eq m c) _).trans ?_
  refine (concatenate_pair_apply_left _ _ _ concatenates_S10240x128_S10240x128_S10240x256_d1 _ rfl (ix2 v l)
    (fun b => by
      match b with
      | ⟨0, _⟩ => rfl
      | ⟨1, _⟩ => rfl)).trans ?_
  exact (truncf_apply (ψ := .bf16) _ bitsLt_bf16_f32 _).trans (tblT_apply _ v l)

theorem V_table_hi (c : Dev nD) (v : Fin 10240) (l : Fin 128) :
    (V (F := Ideal) m c main_v11 : FVec Ideal S10240x256 .bf16) (ix2 v ⟨128 + l.val, by omega⟩)
      = padW (m ((c.tc : Thread nD τ).loc main_arg6)) v l - padW (m ((c.tc : Thread nD τ).loc main_arg6)) v l := by
  refine (congrFun (table_eq m c) _).trans ?_
  refine (concatenate_pair_apply_right _ _ _ concatenates_S10240x128_S10240x128_S10240x256_d1 _ rfl rfl (ix2 v l)
    (fun b hb => by
      match b with
      | ⟨0, _⟩ => rfl
      | ⟨1, _⟩ => exact absurd rfl hb)
    (by show l.val + 128 = 128 + l.val; omega)).trans ?_
  -- narrowing and widening are the identity: the remainder is the table's entry minus itself
  show tblT (m ((c.tc : Thread nD τ).loc main_arg6)) (ix2 v l) - tblT (m ((c.tc : Thread nD τ).loc main_arg6)) (ix2 v l) = _
  rw [tblT_apply]

theorem V_bembed (c : Dev nD) (l : Fin 128) :
    (V (F := Ideal) m c main_v12 : FVec Ideal S1x128 .f32) (ix2 0 l) = (m ((c.tc : Thread nD τ).loc main_arg7) : FVec Ideal S128 .f32) (ix1 l) := by
  refine (congrFun (bembed_eq m c) _).trans ?_
  exact shapeCast_a_1a_apply _ shapeCasts_S128_S1x128 0 l

end Cert.KernelIdeal.KHost

end
-- ==== Proof.KBlocks.lean ====
/-
  From blocks to arrays: each output array after the run is the specification's function of the arguments.

  Grid point t handles rows t·1024 … t·1024 + 1023: it is handed those rows of the input and of the (clipped) labels,
  and the whole of the concatenated weights, the concatenated bias, the split table and the embedding bias; it writes
  back those rows of each of the three outputs. Reading each input block where the arrays' host prefix put the values
  (module KHost) turns the body's three stored values (modules KDense, KEmbed, over KPieces) into the specification's
  entries; the 256 points' blocks cover each output array.

  For the embedding head the table's second half holds w − w at the label's column: for a finite entry w that is 0,
  and w + 0 = w. This is the one place finiteness of the table is used.
-/
import proofs.«425105_j69277822484525_2_alg».proof.Proof.Gen.KernelIdeal.Value
import proofs.«425105_j69277822484525_2_alg».proof.Proof.KPieces
import proofs.«425105_j69277822484525_2_alg».proof.Proof.KDense
import proofs.«425105_j69277822484525_2_alg».proof.Proof.KEmbed
import proofs.«425105_j69277822484525_2_alg».proof.Proof.KHost
import proofs.«425105_j69277822484525_2_alg».proof.Proof.Spec

set_option maxRecDepth 16384

noncomputable section

namespace Cert.KernelIdeal.KBlocks

open Idealize.ShloMosaic Idealize.ShloMosaic.ValueIdx Idealize.ShloMosaic.TcCoe Idealize.SL.Sem Cert.KernelIdeal Cert.KernelIdeal.Gen
open Idealize.ShloMosaic.Pipeline (Dat)
open Cert.KernelIdeal.KAcc
open Cert.KernelIdeal.KEmbed (lo hi)

variable (m : (ℓ : Loc nD τ sig) → Buf (Elt Ideal) ℓ)

/-- The printed index maps, decided over the grid: point t's block index on each axis of each window. -/
theorem idx_facts : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem pt_lt (t : Fin cfg0.N) : t.val < 256 := Nat.lt_of_lt_of_le t.isLt (Nat.le_of_eq N_0)

/-- Row p of point t's blocks is row t·1024 + p of the arrays. -/
def row (t : Fin cfg0.N) (p : Fin 1024) : Fin 262144 := ⟨t.val * 1024 + p.val, by have := pt_lt t; have := p.isLt; omega⟩

/-! ## The input blocks, named at their literal types, and read where the arrays hold the values -/

abbrev yblk (c : Dev nD) (t : Fin cfg0.N) : Vec Ideal S1x1024 .i32 := iblk m c 0 t
abbrev xblk (c : Dev nD) (t : Fin cfg0.N) : Vec Ideal S1024x512 .f32 := iblk m c 1 t
abbrev wblk (c : Dev nD) (t : Fin cfg0.N) : Vec Ideal S512x256 .bf16 := iblk m c 2 t
abbrev bblk (c : Dev nD) (t : Fin cfg0.N) : Vec Ideal S1x256 .f32 := iblk m c 3 t
abbrev tabblk (c : Dev nD) (t : Fin cfg0.N) : Vec Ideal S10240x256 .bf16 := iblk m c 4 t
abbrev eblk (c : Dev nD) (t : Fin cfg0.N) : Vec Ideal S1x128 .f32 := iblk m c 5 t

/-- The labels' block: the clipped label of row t·1024 + p. -/
theorem yblk_apply (c : Dev nD) (t : Fin cfg0.N) (p : Fin 1024) :
    yblk m c t (ix2 (0 : Fin 1) p) = Spec.clipWord ((m ((c.tc : Thread nD τ).loc main_arg1) : IVec S262144 32) (ix1 (row t p))) := by
  obtain ⟨e00, e01, -⟩ := idx_facts t
  refine Eq.trans ?_ (KHost.V_labels m c (row t p))
  show V m c main_v14 (((cfg0.win 0).blk t).view.emb (ix2 (0 : Fin 1) p)) = V m c main_v14 (ix2 (0 : Fin 1) (row t p))
  refine congrArg (V m c main_v14) (funext fun a => Fin.ext ?_)
  match a with
  | ⟨0, _⟩ => show win0_0.index t (0 : Fin 2) * 1 + 1 * 0 = 0; omega
  | ⟨1, _⟩ => show win0_0.index t (1 : Fin 2) * 1024 + 1 * p.val = t.val * 1024 + p.val; omega

/-- The input's block: row t·1024 + p of the input. -/
theorem xblk_apply (c : Dev nD) (t : Fin cfg0.N) (p : Fin 1024) (k : Fin 512) :
    xblk m c t (ix2 p k) = (m ((c.tc : Thread nD τ).loc main_arg0) : FVec Ideal S262144x512 .f32) (ix2 (row t p) k) := by
  obtain ⟨-, -, e10, e11, -⟩ := idx_facts t
  show V m c main_arg0 (((cfg0.win 1).blk t).view.emb (ix2 p k)) = _
  rw [V_main_arg0]
  refine congrArg (m ((c.tc : Thread nD τ).loc main_arg0)) (funext fun a => Fin.ext ?_)
  match a with
  | ⟨0, _⟩ => show win0_1.index t (0 : Fin 2) * 1024 + 1 * p.val = t.val * 1024 + p.val; omega
  | ⟨1, _⟩ => show win0_1.index t (1 : Fin 2) * 512 + 1 * k.val = k.val; omega

/-- The weights' block is the whole concatenated, transposed array. -/
theorem wblk_apply (c : Dev nD) (t : Fin cfg0.N) (k : Fin 512) (n : Fin 256) :
    wblk m c t (ix2 k n) = (V (F := Ideal) m c main_v2 : FVec Ideal S512x256 .bf16) (ix2 k n) := by
  obtain ⟨-, -, -, -, e20, e21, -⟩ := idx_facts t
  show V m c main_v2 (((cfg0.win 2).blk t).view.emb (ix2 k n)) = _
  refine congrArg (V m c main_v2) (funext fun a => Fin.ext ?_)
  match a with
  | ⟨0, _⟩ => show win0_2.index t (0 : Fin 2) * 512 + 1 * k.val = k.val; omega
  | ⟨1, _⟩ => show win0_2.index t (1 : Fin 2) * 256 + 1 * n.val = n.val; omega

/-- The bias's block is the whole concatenated bias. -/
theorem bblk_apply (c : Dev nD) (t : Fin cfg0.N) (n : Fin 256) :
    bblk m c t (ix2 (0 : Fin 1) n) = (V (F := Ideal) m c main_v4 : FVec Ideal S1x256 .f32) (ix2 (0 : Fin 1) n) := by
  obtain ⟨-, -, -, -, -, -, e30, e31, -⟩ := idx_facts t
  show V m c main_v4 (((cfg0.win 3).blk t).view.emb (ix2 (0 : Fin 1) n)) = _
  refine congrArg (V m c main_v4) (funext fun a => Fin.ext ?_)
  match a with
  | ⟨0, _⟩ => show win0_3.index t (0 : Fin 2) * 1 + 1 * 0 = 0; omega
  | ⟨1, _⟩ => show win0_3.index t (1 : Fin 2) * 256 + 1 * n.val = n.val; omega

/-- The table's block is the whole split table. -/
theorem tabblk_apply (c : Dev nD) (t : Fin cfg0.N) (v : Fin 10240) (n : Fin 256) :
    tabblk m c t (ix2 v n) = (V (F := Ideal) m c main_v11 : FVec Ideal S10240x256 .bf16) (ix2 v n) := by
  obtain ⟨-, -, -, -, -, -, -, -, e40, e41, -⟩ := idx_facts t
  show V m c main_v11 (((cfg0.win 4).blk t).view.emb (ix2 v n)) = _
  refine congrArg (V m c main_v11) (funext fun a => Fin.ext ?_)
  match a with
  | ⟨0, _⟩ => show win0_4.index t (0 : Fin 2) * 10240 + 1 * v.val = v.val; omega
  | ⟨1, _⟩ => show win0_4.index t (1 : Fin 2) * 256 + 1 * n.val = n.val; omega

/-- The embedding bias's block is the whole bias. -/
theorem eblk_apply (c : Dev nD) (t : Fin cfg0.N) (l : Fin 128) :
    eblk m c t (ix2 (0 : Fin 1) l) = (m ((c.tc : Thread nD τ).loc main_arg7) : FVec Ideal S128 .f32) (ix1 l) := by
  obtain ⟨-, -, -, -, -, -, -, -, -, -, e50, e51, -⟩ := idx_facts t
  refine Eq.trans ?_ (KHost.V_bembed m c l)
  show V m c main_v12 (((cfg0.win 5).blk t).view.emb (ix2 (0 : Fin 1) l)) = V m c main_v12 (ix2 (0 : Fin 1) l)
  refine congrArg (V m c main_v12) (funext fun a => Fin.ext ?_)
  match a with
  | ⟨0, _⟩ => show win0_5.index t (0 : Fin 2) * 1 + 1 * 0 = 0; omega
  | ⟨1, _⟩ => show win0_5.index t (1 : Fin 2) * 128 + 1 * l.val = l.val; omega

/-! ## What a point writes back, at an index -/

/-- The first dense head at row p of point t, feature l. -/
theorem logvar_at (c : Dev nD) (t : Fin cfg0.N) (p : Fin 1024) (l : Fin 128) :
    k0_pay2 (F := Ideal) (xblk m c t) (wblk m c t) (bblk m c t) (ix2 p l)
      = Spec.denseAt (m ((c.tc : Thread nD τ).loc main_arg0)) (m ((c.tc : Thread nD τ).loc main_arg2)) (m ((c.tc : Thread nD τ).loc main_arg3)) (row t p) l := by
  refine (KDense.pay2_apply (xblk m c t) (wblk m c t) (bblk m c t) p l).trans ?_
  unfold Spec.denseAt
  refine congrArg₂ (· + ·) (Finset.sum_congr rfl fun k _ => congrArg₂ (· * ·) (xblk_apply m c t p k) ?_) ?_
  · exact (wblk_apply m c t k _).trans (KHost.V_wcat_lo m c k l)
  · exact (bblk_apply m c t _).trans (KHost.V_bcat_lo m c l)

/-- The second dense head at row p of point t, feature l. -/
theorem mean_at (c : Dev nD) (t : Fin cfg0.N) (p : Fin 1024) (l : Fin 128) :
    k0_pay3 (F := Ideal) (xblk m c t) (wblk m c t) (bblk m c t) (ix2 p l)
      = Spec.denseAt (m ((c.tc : Thread nD τ).loc main_arg0)) (m ((c.tc : Thread nD τ).loc main_arg4)) (m ((c.tc : Thread nD τ).loc main_arg5)) (row t p) l := by
  refine (KDense.pay3_apply (xblk m c t) (wblk m c t) (bblk m c t) p l).trans ?_
  unfold Spec.denseAt
  refine congrArg₂ (· + ·) (Finset.sum_congr rfl fun k _ => congrArg₂ (· * ·) (xblk_apply m c t p k) ?_) ?_
  · exact (wblk_apply m c t k _).trans (KHost.V_wcat_hi m c k l)
  · exact (bblk_apply m c t _).trans (KHost.V_bcat_hi m c l)

/-- A real number minus itself, added to itself, is itself (on the extended reals this needs the number finite). -/
theorem add_sub_self_of_real (w : EReal) (h : ∃ r : ℝ, w = (r : EReal)) : w + (w - w) = w := by
  obtain ⟨r, rfl⟩ := h
  rw [← EReal.coe_sub, sub_self, EReal.coe_zero, add_zero]

/-- The embedding head at row p of point t, feature l. -/
theorem embed_at (hfin : ∀ (c : Dev nD) (i : S128x10000.Idx), ∃ r : ℝ, (m ((c.tc : Thread nD τ).loc main_arg6) : FVec Ideal S128x10000 .f32) i = (r : EReal))
    (c : Dev nD) (t : Fin cfg0.N) (p : Fin 1024) (l : Fin 128) :
    k0_pay6 (F := Ideal) (acc (yblk m c t) (tabblk m c t) k0_t1_loop.trips) (eblk m c t) (ix2 p l)
      = Spec.embedAt (m ((c.tc : Thread nD τ).loc main_arg1)) (m ((c.tc : Thread nD τ).loc main_arg6)) (m ((c.tc : Thread nD τ).loc main_arg7)) (row t p) l := by
  have hy := yblk_apply m c t p
  have hcol := KHost.clipWord_toNat ((m ((c.tc : Thread nD τ).loc main_arg1) : IVec S262144 32) (ix1 (row t p)))
  have hlt : (Spec.col ((m ((c.tc : Thread nD τ).loc main_arg1) : IVec S262144 32) (ix1 (row t p)))).val < 10000 := (Spec.col _).isLt
  have hw : (yblk m c t (ix2 (0 : Fin 1) p)).toNat < 10240 := by rw [hy, hcol]; omega
  refine (KEmbed.embed_apply (yblk m c t) (tabblk m c t) (eblk m c t) p l hw).trans ?_
  unfold Spec.embedAt
  refine congrArg₂ (· + ·) ?_ (eblk_apply m c t l)
  -- the table's row at the label: w and w − w
  have hv : (⟨(yblk m c t (ix2 (0 : Fin 1) p)).toNat, hw⟩ : Fin 10240).val < 10000 := by
    show (yblk m c t (ix2 (0 : Fin 1) p)).toNat < 10000
    rw [hy, hcol]; exact hlt
  have hcolEq : (⟨(⟨(yblk m c t (ix2 (0 : Fin 1) p)).toNat, hw⟩ : Fin 10240).val, hv⟩ : Fin 10000)
      = Spec.col ((m ((c.tc : Thread nD τ).loc main_arg1) : IVec S262144 32) (ix1 (row t p))) := by
    apply Fin.ext
    show (yblk m c t (ix2 (0 : Fin 1) p)).toNat = _
    rw [hy, hcol]
  have hpad : KHost.padW (m ((c.tc : Thread nD τ).loc main_arg6)) ⟨(yblk m c t (ix2 (0 : Fin 1) p)).toNat, hw⟩ l
      = (m ((c.tc : Thread nD τ).loc main_arg6) : FVec Ideal S128x10000 .f32) (ix2 l (Spec.col ((m ((c.tc : Thread nD τ).loc main_arg1) : IVec S262144 32) (ix1 (row t p))))) := by
    unfold KHost.padW
    rw [dif_pos hv, hcolEq]
  have e1 := (tabblk_apply m c t ⟨(yblk m c t (ix2 (0 : Fin 1) p)).toNat, hw⟩ (lo l)).trans (KHost.V_table_lo m c _ l)
  have e2 := (tabblk_apply m c t ⟨(yblk m c t (ix2 (0 : Fin 1) p)).toNat, hw⟩ (hi l)).trans (KHost.V_table_hi m c _ l)
  rw [e1, e2, hpad]
  exact add_sub_self_of_real _ (hfin c _)

/-! ## What each point writes back is its block of the specification's array -/

theorem emb6 (t : Fin cfg0.N) (p : Fin 1024) (l : Fin 128) : ((cfg0.win 6).blk t).view.emb (ix2 p l) = ix2 (row t p) l := by
  obtain ⟨-, -, -, -, -, -, -, -, -, -, -, -, e60, e61, -⟩ := idx_facts t
  refine funext fun a => Fin.ext ?_
  match a with
  | ⟨0, _⟩ => show win0_6.index t (0 : Fin 2) * 1024 + 1 * p.val = t.val * 1024 + p.val; omega
  | ⟨1, _⟩ => show win0_6.index t (1 : Fin 2) * 128 + 1 * l.val = l.val; omega

theorem emb7 (t : Fin cfg0.N) (p : Fin 1024) (l : Fin 128) : ((cfg0.win 7).blk t).view.emb (ix2 p l) = ix2 (row t p) l := by
  obtain ⟨-, -, -, -, -, -, -, -, -, -, -, -, -, -, e70, e71, -⟩ := idx_facts t
  refine funext fun a => Fin.ext ?_
  match a with
  | ⟨0, _⟩ => show win0_7.index t (0 : Fin 2) * 1024 + 1 * p.val = t.val * 1024 + p.val; omega
  | ⟨1, _⟩ => show win0_7.index t (1 : Fin 2) * 128 + 1 * l.val = l.val; omega

theorem emb8 (t : Fin cfg0.N) (p : Fin 1024) (l : Fin 128) : ((cfg0.win 8).blk t).view.emb (ix2 p l) = ix2 (row t p) l := by
  obtain ⟨-, -, -, -, -, -, -, -, -, -, -, -, -, -, -, -, e80, e81⟩ := idx_facts t
  refine funext fun a => Fin.ext ?_
  match a with
  | ⟨0, _⟩ => show win0_8.index t (0 : Fin 2) * 1024 + 1 * p.val = t.val * 1024 + p.val; omega
  | ⟨1, _⟩ => show win0_8.index t (1 : Fin 2) * 128 + 1 * l.val = l.val; omega

theorem flushed6_eq (c : Dev nD) (t : Fin cfg0.N) :
    (dats m 0 c).flushed 6 t = ((cfg0.win 6).blk t).view.read (Elt Ideal) (Spec.dense (m ((c.tc : Thread nD τ).loc main_arg0)) (m ((c.tc : Thread nD τ).loc main_arg2)) (m ((c.tc : Thread nD τ).loc main_arg3))) := by
  rw [Value.flushed6_A, KPieces.out6_eq]
  funext j
  obtain ⟨p, l, rfl⟩ : ∃ (p : Fin 1024) (l : Fin 128), j = ix2 p l := ⟨j 0, j 1, eq_ix2 j⟩
  show k0_pay2 (F := Ideal) (xblk m c t) (wblk m c t) (bblk m c t) (ix2 p l)
    = Spec.dense (m ((c.tc : Thread nD τ).loc main_arg0)) (m ((c.tc : Thread nD τ).loc main_arg2)) (m ((c.tc : Thread nD τ).loc main_arg3)) (((cfg0.win 6).blk t).view.emb (ix2 p l))
  rw [emb6]
  exact logvar_at m c t p l

theorem flushed7_eq (c : Dev nD) (t : Fin cfg0.N) :
    (dats m 0 c).flushed 7 t = ((cfg0.win 7).blk t).view.read (Elt Ideal) (Spec.dense (m ((c.tc : Thread nD τ).loc main_arg0)) (m ((c.tc : Thread nD τ).loc main_arg4)) (m ((c.tc : Thread nD τ).loc main_arg5))) := by
  rw [Value.flushed7_A, KPieces.out7_eq]
  funext j
  obtain ⟨p, l, rfl⟩ : ∃ (p : Fin 1024) (l : Fin 128), j = ix2 p l := ⟨j 0, j 1, eq_ix2 j⟩
  show k0_pay3 (F := Ideal) (xblk m c t) (wblk m c t) (bblk m c t) (ix2 p l)
    = Spec.dense (m ((c.tc : Thread nD τ).loc main_arg0)) (m ((c.tc : Thread nD τ).loc main_arg4)) (m ((c.tc : Thread nD τ).loc main_arg5)) (((cfg0.win 7).blk t).view.emb (ix2 p l))
  rw [emb7]
  exact mean_at m c t p l

theorem flushed8_eq (hfin : ∀ (c : Dev nD) (i : S128x10000.Idx), ∃ r : ℝ, (m ((c.tc : Thread nD τ).loc main_arg6) : FVec Ideal S128x10000 .f32) i = (r : EReal))
    (c : Dev nD) (t : Fin cfg0.N) :
    (dats m 0 c).flushed 8 t = ((cfg0.win 8).blk t).view.read (Elt Ideal) (Spec.embed (m ((c.tc : Thread nD τ).loc main_arg1)) (m ((c.tc : Thread nD τ).loc main_arg6)) (m ((c.tc : Thread nD τ).loc main_arg7))) := by
  rw [Value.flushed8_A, KPieces.out8_eq]
  funext j
  obtain ⟨p, l, rfl⟩ : ∃ (p : Fin 1024) (l : Fin 128), j = ix2 p l := ⟨j 0, j 1, eq_ix2 j⟩
  show k0_pay6 (F := Ideal) (acc (yblk m c t) (tabblk m c t) k0_t1_loop.trips) (eblk m c t) (ix2 p l)
    = Spec.embed (m ((c.tc : Thread nD τ).loc main_arg1)) (m ((c.tc : Thread nD τ).loc main_arg6)) (m ((c.tc : Thread nD τ).loc main_arg7)) (((cfg0.win 8).blk t).view.emb (ix2 p l))
  rw [emb8]
  exact embed_at m hfin c t p l

/-! ## The points' blocks cover each output array -/

theorem mem_blk6 (t : Fin cfg0.N) (i : S262144x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v15_0).slice (win0_6.rect t)).set ↔ _
  rw [View.set_slice_whole, Rect.mem_set_unit]
  exact Iff.rfl

theorem mem_blk7 (t : Fin cfg0.N) (i : S262144x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v15_1).slice (win0_7.rect t)).set ↔ _
  rw [View.set_slice_whole, Rect.mem_set_unit]
  exact Iff.rfl

theorem mem_blk8 (t : Fin cfg0.N) (i : S262144x128.Idx) :
    i ∈ ((cfg0.win 8).blk t).view.set ↔ ∀ a : Fin 2, win0_8.index t a * S1024x128.size a ≤ (i a).val ∧ (i a).val < win0_8.index t a * S1024x128.size a + S1024x128.size a := by
  show i ∈ ((View.whole main_v15_2).slice (win0_8.rect t)).set ↔ _
  rw [View.set_slice_whole, Rect.mem_set_unit]
  exact Iff.rfl

/-- The point whose block holds row r. -/
def ptOf (i : S262144x128.Idx) : Fin cfg0.N := ⟨(i 0).val / 1024, by
  have h : (i 0).val < 262144 := (i 0).isLt
  have hN : cfg0.N = 256 := N_0
  rw [hN]; omega⟩

theorem cover6 (i : S262144x128.Idx) : ∃ t : Fin cfg0.N, (cfg0.win 6).flush t = true ∧ i ∈ ((cfg0.win 6).blk t).view.set := by
  have hi0 : (i 0).val < 262144 := (i 0).isLt
  have hi1 : (i 1).val < 128 := (i 1).isLt
  refine ⟨ptOf i, flush0_6 _, ?_⟩
  rw [mem_blk6]
  obtain ⟨-, -, -, -, -, -, -, -, -, -, -, -, e0, e1, -⟩ := idx_facts (ptOf i)
  have hp : (ptOf i).val = (i 0).val / 1024 := rfl
  intro a
  match a with
  | ⟨0, _⟩ => show win0_6.index (ptOf i) (0 : Fin 2) * 1024 ≤ (i 0).val ∧ (i 0).val < win0_6.index (ptOf i) (0 : Fin 2) * 1024 + 1024; omega
  | ⟨1, _⟩ => show win0_6.index (ptOf i) (1 : Fin 2) * 128 ≤ (i 1).val ∧ (i 1).val < win0_6.index (ptOf i) (1 : Fin 2) * 128 + 128; omega

theorem cover7 (i : S262144x128.Idx) : ∃ t : Fin cfg0.N, (cfg0.win 7).flush t = true ∧ i ∈ ((cfg0.win 7).blk t).view.set := by
  have hi0 : (i 0).val < 262144 := (i 0).isLt
  have hi1 : (i 1).val < 128 := (i 1).isLt
  refine ⟨ptOf i, flush0_7 _, ?_⟩
  rw [mem_blk7]
  obtain ⟨-, -, -, -, -, -, -, -, -, -, -, -, -, -, e0, e1, -⟩ := idx_facts (ptOf i)
  have hp : (ptOf i).val = (i 0).val / 1024 := rfl
  intro a
  match a with
  | ⟨0, _⟩ => show win0_7.index (ptOf i) (0 : Fin 2) * 1024 ≤ (i 0).val ∧ (i 0).val < win0_7.index (ptOf i) (0 : Fin 2) * 1024 + 1024; omega
  | ⟨1, _⟩ => show win0_7.index (ptOf i) (1 : Fin 2) * 128 ≤ (i 1).val ∧ (i 1).val < win0_7.index (ptOf i) (1 : Fin 2) * 128 + 128; omega

theorem cover8 (i : S262144x128.Idx) : ∃ t : Fin cfg0.N, (cfg0.win 8).flush t = true ∧ i ∈ ((cfg0.win 8).blk t).view.set := by
  have hi0 : (i 0).val < 262144 := (i 0).isLt
  have hi1 : (i 1).val < 128 := (i 1).isLt
  refine ⟨ptOf i, flush0_8 _, ?_⟩
  rw [mem_blk8]
  obtain ⟨-, -, -, -, -, -, -, -, -, -, -, -, -, -, -, -, e0, e1⟩ := idx_facts (ptOf i)
  have hp : (ptOf i).val = (i 0).val / 1024 := rfl
  intro a
  match a with
  | ⟨0, _⟩ => show win0_8.index (ptOf i) (0 : Fin 2) * 1024 ≤ (i 0).val ∧ (i 0).val < win0_8.index (ptOf i) (0 : Fin 2) * 1024 + 1024; omega
  | ⟨1, _⟩ => show win0_8.index (ptOf i) (1 : Fin 2) * 128 ≤ (i 1).val ∧ (i 1).val < win0_8.index (ptOf i) (1 : Fin 2) * 128 + 128; omega

/-! ## The arrays after the run -/

theorem final6 (c : Dev nD) : (dats m 0 c).arrAt 6 cfg0.N = Spec.dense (m ((c.tc : Thread nD τ).loc main_arg0)) (m ((c.tc : Thread nD τ).loc main_arg2)) (m ((c.tc : Thread nD τ).loc main_arg3)) :=
  (dats m 0 c).arrAt_eq_of_cover 6 _ (fun t _ => flushed6_eq m c t) cover6

theorem final7 (c : Dev nD) : (dats m 0 c).arrAt 7 cfg0.N = Spec.dense (m ((c.tc : Thread nD τ).loc main_arg0)) (m ((c.tc : Thread nD τ).loc main_arg4)) (m ((c.tc : Thread nD τ).loc main_arg5)) :=
  (dats m 0 c).arrAt_eq_of_cover 7 _ (fun t _ => flushed7_eq m c t) cover7

theorem final8 (hfin : ∀ (c : Dev nD) (i : S128x10000.Idx), ∃ r : ℝ, (m ((c.tc : Thread nD τ).loc main_arg6) : FVec Ideal S128x10000 .f32) i = (r : EReal))
    (c : Dev nD) : (dats m 0 c).arrAt 8 cfg0.N = Spec.embed (m ((c.tc : Thread nD τ).loc main_arg1)) (m ((c.tc : Thread nD τ).loc main_arg6)) (m ((c.tc : Thread nD τ).loc main_arg7)) :=
  (dats m 0 c).arrAt_eq_of_cover 8 _ (fun t _ => flushed8_eq m hfin c t) cover8

end Cert.KernelIdeal.KBlocks

end
-- ==== Proof.KRun.lean ====
/-
  The idealized kernel's run, with its three results read as the specification's functions of the arguments:
  the generated run leaves each output array at what the 256 grid points wrote back, and those arrays are the
  specification's (module KBlocks).
-/
import proofs.«425105_j69277822484525_2_alg».proof.Proof.Gen.KernelIdeal.Frame
import proofs.«425105_j69277822484525_2_alg».proof.Proof.Gen.KernelIdeal.Value
import proofs.«425105_j69277822484525_2_alg».proof.Proof.KBlocks
import proofs.«425105_j69277822484525_2_alg».proof.Proof.Spec

noncomputable section

namespace Cert.KernelSide

open Idealize.ShloMosaic Idealize.ShloMosaic.ValueIdx Idealize.SL.Sem Cert.KernelIdeal

theorem run (m : (ℓ : Loc nD τ sig) → Buf (Elt Ideal) ℓ) (ρ : Dev nD → PrngReg)
    (hfin : ∀ (c : Dev nD) (i : S128x10000.Idx), ∃ r : ℝ, (m ((c.tc : Thread nD τ).loc main_arg6) : FVec Ideal S128x10000 .f32) i = (r : EReal)) :
    θ_run (defs (F := Ideal)) (onTc (τ := τ) (main (F := Ideal))) ⟨m, fun _ => 0, ρ⟩ (fun r => ∀ c : Dev nD,
      r.2.mem ((c.tc : Thread nD τ).loc main_v15_0) = Spec.dense (m ((c.tc : Thread nD τ).loc main_arg0)) (m ((c.tc : Thread nD τ).loc main_arg2)) (m ((c.tc : Thread nD τ).loc main_arg3))
      ∧ r.2.mem ((c.tc : Thread nD τ).loc main_v15_1) = Spec.dense (m ((c.tc : Thread nD τ).loc main_arg0)) (m ((c.tc : Thread nD τ).loc main_arg4)) (m ((c.tc : Thread nD τ).loc main_arg5))
      ∧ r.2.mem ((c.tc : Thread nD τ).loc main_v15_2) = Spec.embed (m ((c.tc : Thread nD τ).loc main_arg1)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c =>
      ⟨(h c).1.trans (Cert.KernelIdeal.KBlocks.final6 m c),
        (h c).2.1.trans (Cert.KernelIdeal.KBlocks.final7 m c),
        (h c).2.2.1.trans (Cert.KernelIdeal.KBlocks.final8 m hfin c),
        (h c).2.2.2⟩)
    (Cert.KernelIdeal.Value.run_blocks (F := Ideal) m ρ)

end Cert.KernelSide

end
-- ==== Proof.LibDotNT.lean ====
/-
  A matrix product against a transposed right operand, read at an index, at the ideal values.

  For dimension numbers that contract the left operand's axis 1 with the right operand's axis 1 and keep the
  left's axis 0 and the right's axis 0, with no batch axis — an `M × K` by `N × K` product, `l · rᵀ` —, the result
  at `(a, b)` is `∑ k, l (a, k) · r (b, k)` over `k : Fin K`: for the kernel's matrix unit accumulating into a zero
  vector and for the host's `dot_general` alike. The library states both as a sum over the contraction shape's
  indices at the operand indices `lhsIdx` / `rhsIdx`; here those are read off, coordinate by coordinate, and the
  sum is re-indexed by the contraction shape's one coordinate.
-/
import Idealize.ShloMosaic.PureOps.Ideal.Laws
import Idealize.ShloMosaic.Lib.ValueIdx

noncomputable section

namespace Cert.LibDotNT

open Idealize.ShloMosaic Idealize.ShloMosaic.ValueIdx

variable {M K N : Nat} (D : DotDims ⟨2, ![M, K]⟩ ⟨2, ![N, K]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the result's column. -/
theorem rhs_row (hlb : D.lhsBatch = []) (hrb : D.rhsBatch = []) (hln : D.lhsNonContracting = [0]) (hrn : D.rhsNonContracting = [0])
    (j : (⟨2, ![M, N]⟩ : Shape).Idx) (k : D.contr.Idx) :
    (D.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column is the contraction coordinate. -/
theorem rhs_col (hrc : D.rhsContracting = [1]) (j : (⟨2, ![M, N]⟩ : Shape).Idx) (k : D.contr.Idx) :
    (D.rhsIdx j k 1).val = (k ⟨0, by rw [D.rank_contr, ← D.length_contracting, hrc]; exact Nat.one_pos⟩).val :=
  D.rhsIdx_val_of_single hrc j k

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and row `b` of the right. -/
theorem sum_nt (hlc : D.lhsContracting = [1]) (hrc : D.rhsContracting = [1]) (hln : D.lhsNonContracting = [0])
    (hrn : D.rhsNonContracting = [0]) (hlb : D.lhsBatch = []) (hrb : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 b k := by
    funext x; refine Fin.ext ?_
    match x with
    | ⟨0, _⟩ => exact rhs_row D hlb hrb hln hrn _ _
    | ⟨1, _⟩ => exact (rhs_col D hrc _ _).trans hk
  rw [e1, e2]

/-- The kernel's matrix product into a zero accumulator, read at `(a, b)`. -/
theorem matmul_nt_apply {φ₁ φ₂ : FTy} (hlc : D.lhsContracting = [1]) (hrc : D.rhsContracting = [1]) (hln : D.lhsNonContracting = [0])
    (hrn : D.rhsNonContracting = [0]) (hlb : D.lhsBatch = []) (hrb : D.rhsBatch = []) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  show FloatOps.matmul D prec l r (constant ⟨2, ![M, N]⟩ .f32 0x00000000#32) (ix2 a b) = _
  rw [Ideal.matmul_constant_zero_apply]
  exact sum_nt D hlc hrc hln hrn hlb hrb l r a b

/-- The host's product read at `(a, b)`. -/
theorem dotGeneral_nt_apply {φ₁ φ₂ : FTy} (hlc : D.lhsContracting = [1]) (hrc : D.rhsContracting = [1]) (hln : D.lhsNonContracting = [0])
    (hrn : D.rhsNonContracting = [0]) (hlb : D.lhsBatch = []) (hrb : D.rhsBatch = []) (prec : Option ContractPrecision)
    (l : FVec Ideal ⟨2, ![M, K]⟩ φ₁) (r : FVec Ideal ⟨2, ![N, K]⟩ φ₂) (a : Fin M) (b : Fin N) :
    Host.dotGeneral D prec l r (ix2 a b) = ∑ k : Fin K, l (ix2 a k) * r (ix2 b k) := by
  show FloatOps.dotGeneral D prec .single l r (ix2 a b) = _
  rw [Ideal.dotGeneral_apply]
  exact sum_nt D hlc hrc hln hrn hlb hrb l r a b

end Cert.LibDotNT

end
-- ==== Proof.LibGather2.lean ====
/-
  A `stablehlo.gather` whose start index has ONE or TWO components, read at a result index.

  The operand is a table with one "long" axis of extent `L` that is kept whole (an offset axis of the result) and one or
  two "gathered" axes of extents `U` (and `V`) that are collapsed and named by the start index map; the start indices
  are an `[N × 1]` or `[N × 2]` array, one start index per row. Result element `(l, n)` (gathered axes last in the
  operand) or `(n, l)` (gathered axes first) is the operand at long coordinate `l` and, on each gathered axis, the
  row-`n` start index's component read as a SIGNED integer and clamped into the axis (`clampIdx`: a negative component
  reads position 0, one past the end reads the last position), as StableHLO's gather clamps every start index.
-/
import Idealize.ShloMosaic.Lib.ValueIdx
import Idealize.ShloMosaic.PureOps.ShapeOps
import Idealize.ShloMosaic.PureOps.Dims

namespace Cert.LibGather2

open Idealize.ShloMosaic Idealize.ShloMosaic.ValueIdx

/-- A `w`-bit word read as a signed integer and clamped into `[0, U − 1]`: the position on an axis of extent `U` that a
    gather's start-index component names (a negative word names position 0, a word past the end the last position). -/
def clampIdx {w : Nat} (U : Nat) (hU : 0 < U) (z : BitVec w) : Fin U := ⟨min z.toInt.toNat (U - 1), by omega⟩

@[simp] theorem clampIdx_val {w : Nat} (U : Nat) (hU : 0 < U) (z : BitVec w) :
    (clampIdx U hU z).val = min z.toInt.toNat (U - 1) := rfl

/-! ## The pieces of the operand index, under a singleton batch / offset axis list -/

/-- A list equal to a singleton has that one element at every position. -/
private theorem getElem_of_eq_singleton {β : Type} {l : List β} {a : β} (hl : l = [a]) (k : Nat) (h : k < l.length) :
    l[k]'h = a := by
  subst hl; simp

/-- With ONE offset axis `o` in the result, the offset coordinate on a kept operand axis is the result index's coordinate
    on `o`. -/
private theorem offCoord_single {s si t : Shape} (d : GatherDims s si t) {o : Fin t.rank} (hod : d.offsetDims = [o])
    (j : t.Idx) (a : Fin s.rank) (ha : a ∈ d.sKept) : d.offCoord j a = (j o).val := by
  unfold GatherDims.offCoord
  rw [dif_pos ha, getElem_of_eq_singleton hod]

/-- With ONE batch axis `b` in the result and the index vector on axis 1 of a rank-2 array of start indices, component
    `c` of the start index that result index `j` reads sits at row `j b`, column `c`. -/
private theorem siIdx_single {s t : Shape} {N K : Nat} (d : GatherDims s ⟨2, ![N, K]⟩ t) {b : Fin t.rank}
    (hbd : d.batchDims = [b]) (hivd : d.indexVectorDim = 1) (j : t.Idx) (n : Fin N) (hn : (j b).val = n.val)
    (c : Fin d.startIndexMap.length) (c' : Fin K) (hc : c.val = c'.val) :
    d.siIdx j c = ix2 n c' := by
  funext e
  match e with
  | ⟨0, _⟩ =>
    unfold GatherDims.siIdx
    rw [dif_neg (by rw [hivd]; simp)]
    unfold GatherDims.siCoord
    apply Fin.ext
    simp only [Fin.val_cast]
    rw [getElem_of_eq_singleton hbd]
    exact hn
  | ⟨1, _⟩ =>
    unfold GatherDims.siIdx
    rw [dif_pos (by rw [hivd])]
    exact Fin.ext hc

/-- The slice start on a GATHERED operand axis `a` (collapsed, and named by the start index map at position `c`): row
    `n`'s start index's component `c`, read signed and clamped to the axis. -/
private theorem start_gathered {s t : Shape} {N K w : Nat} (d : GatherDims s ⟨2, ![N, K]⟩ t) {b : Fin t.rank}
    (hbd : d.batchDims = [b]) (hivd : d.indexVectorDim = 1) (j : t.Idx) (n : Fin N) (hn : (j b).val = n.val)
    (idx : IVec ⟨2, ![N, K]⟩ w) (a : Fin s.rank) (ha : a ∈ d.startIndexMap) (hcl : a ∈ d.collapsedSliceDims)
    (c' : Fin K) (hc : d.startIndexMap.idxOf a = c'.val) :
    d.start j idx a = min (idx (ix2 n c')).toInt.toNat (s.size a - 1) := by
  unfold GatherDims.start
  rw [dif_pos ha, d.slice_collapsed a hcl, siIdx_single d hbd hivd j n hn _ c' hc]

/-- The operand coordinate on a GATHERED axis, when no axis is a batching one: the clamped start alone. -/
private theorem coord_gathered {s t : Shape} {N K w : Nat} (d : GatherDims s ⟨2, ![N, K]⟩ t) {b : Fin t.rank}
    (hbd : d.batchDims = [b]) (hob : d.operandBatchingDims = []) (hivd : d.indexVectorDim = 1) (j : t.Idx) (n : Fin N)
    (hn : (j b).val = n.val) (idx : IVec ⟨2, ![N, K]⟩ w) (a : Fin s.rank) (ha : a ∈ d.startIndexMap)
    (hcl : a ∈ d.collapsedSliceDims) (c' : Fin K) (hc : d.startIndexMap.idxOf a = c'.val) :
    (d.operandIdx j idx a).val = min (idx (ix2 n c')).toInt.toNat (s.size a - 1) := by
  show d.start j idx a + d.batchCoord j a + d.offCoord j a = _
  rw [d.batchCoord_eq_zero j a (by rw [hob]; exact List.not_mem_nil),
    d.offCoord_eq_zero j a (fun h => ((d.mem_sKept a).1 h).1 hcl)]
  simp only [Nat.add_zero]
  exact start_gathered d hbd hivd j n hn idx a ha hcl c' hc

/-- The operand coordinate on the KEPT axis (not collapsed, not named by the start index map), with one offset axis `o` in
    the result and no batching: the result index's coordinate on `o`. -/
private theorem coord_kept {s si t : Shape} {w : Nat} (d : GatherDims s si t) {o : Fin t.rank} (hod : d.offsetDims = [o])
    (hob : d.operandBatchingDims = []) (j : t.Idx) (idx : IVec si w) (a : Fin s.rank) (ha : a ∉ d.startIndexMap)
    (hcl : a ∉ d.collapsedSliceDims) : (d.operandIdx j idx a).val = (j o).val := by
  have hb : a ∉ d.operandBatchingDims := by rw [hob]; exact List.not_mem_nil
  show d.start j idx a + d.batchCoord j a + d.offCoord j a = _
  rw [d.batchCoord_eq_zero j a hb, offCoord_single d hod j a ((d.mem_sKept a).2 ⟨hcl, hb⟩)]
  unfold GatherDims.start
  rw [dif_neg ha]
  simp only [Nat.add_zero, Nat.zero_add]

/-! ## The four reads -/

/-- (A) TWO gathered axes, LAST in the operand. Result element `(l, n)` of the gather of an `[L × U × V]` table at an
    `[N × 2]` array of start indices is the table at `(l, u, v)`, `u` and `v` the two components of row `n`'s start
    index, each read signed and clamped into its axis. -/
theorem gather_last2 {α : Type} {L U V N w : Nat} (d : GatherDims ⟨3, ![L, U, V]⟩ ⟨2, ![N, 2]⟩ ⟨2, ![L, N]⟩)
    (hod : d.offsetDims = [0]) (hcoll : d.collapsedSliceDims = [1, 2]) (hob : d.operandBatchingDims = [])
    (hsim : d.startIndexMap = [1, 2]) (hivd : d.indexVectorDim = 1) (hU : 0 < U) (hV : 0 < V)
    (x : (⟨3, ![L, U, V]⟩ : Shape).Idx → α) (idx : IVec ⟨2, ![N, 2]⟩ w) (l : Fin L) (n : Fin N) :
    Host.gather d x idx (ix2 l n) = x (ix3 l (clampIdx U hU (idx (ix2 n 0))) (clampIdx V hV (idx (ix2 n 1)))) := by
  have hbd : d.batchDims = [1] := by
    show Shape.kept _ d.offsetDims = [1]
    rw [hod]; rfl
  unfold Host.gather
  congr 1
  funext a
  apply Fin.ext
  match a with
  | ⟨0, _⟩ =>
    exact coord_kept d hod hob (ix2 l n) idx 0 (by rw [hsim]; simp) (by rw [hcoll]; simp)
  | ⟨1, _⟩ =>
    exact coord_gathered d hbd hob hivd (ix2 l n) n rfl idx 1 (by rw [hsim]; simp) (by rw [hcoll]; simp) 0 (by rw [hsim]; rfl)
  | ⟨2, _⟩ =>
    exact coord_gathered d hbd hob hivd (ix2 l n) n rfl idx 2 (by rw [hsim]; simp) (by rw [hcoll]; simp) 1 (by rw [hsim]; rfl)

/-- (B) TWO gathered axes, FIRST in the operand. Result element `(n, l)` of the gather of a `[U × V × L]` table at an
    `[N × 2]` array of start indices is the table at `(u, v, l)`, `u` and `v` the two components of row `n`'s start
    index, each read signed and clamped into its axis. The hypotheses are the printed dimension numbers (each `rfl` at
    a program's literal attribute); the slice sizes need no hypothesis: a collapsed axis has slice size one, and the
    kept axis starts at 0 whatever its slice. -/
theorem gather_first2 {α : Type} {L U V N w : Nat} (d : GatherDims ⟨3, ![U, V, L]⟩ ⟨2, ![N, 2]⟩ ⟨2, ![N, L]⟩)
    (hod : d.offsetDims = [1]) (hcoll : d.collapsedSliceDims = [0, 1]) (hob : d.operandBatchingDims = [])
    (hsim : d.startIndexMap = [0, 1]) (hivd : d.indexVectorDim = 1) (hU : 0 < U) (hV : 0 < V)
    (x : (⟨3, ![U, V, L]⟩ : Shape).Idx → α) (idx : IVec ⟨2, ![N, 2]⟩ w) (n : Fin N) (l : Fin L) :
    Host.gather d x idx (ix2 n l) = x (ix3 (clampIdx U hU (idx (ix2 n 0))) (clampIdx V hV (idx (ix2 n 1))) l) := by
  have hbd : d.batchDims = [0] := by
    show Shape.kept _ d.offsetDims = [0]
    rw [hod]; rfl
  unfold Host.gather
  congr 1
  funext a
  apply Fin.ext
  match a with
  | ⟨0, _⟩ =>
    exact coord_gathered d hbd hob hivd (ix2 n l) n rfl idx 0 (by rw [hsim]; simp) (by rw [hcoll]; simp) 0 (by rw [hsim]; rfl)
  | ⟨1, _⟩ =>
    exact coord_gathered d hbd hob hivd (ix2 n l) n rfl idx 1 (by rw [hsim]; simp) (by rw [hcoll]; simp) 1 (by rw [hsim]; rfl)
  | ⟨2, _⟩ =>
    exact coord_kept d hod hob (ix2 n l) idx 2 (by rw [hsim]; simp) (by rw [hcoll]; simp)

/-- (C) ONE gathered axis, LAST in the operand. Result element `(l, n)` of the gather of an `[L × U]` table at an
    `[N × 1]` column of start indices is the table at `(l, u)`, `u` row `n`'s start index read signed and clamped into
    the axis. -/
theorem gather_last1 {α : Type} {L U N w : Nat} (d : GatherDims ⟨2, ![L, U]⟩ ⟨2, ![N, 1]⟩ ⟨2, ![L, N]⟩)
    (hod : d.offsetDims = [0]) (hcoll : d.collapsedSliceDims = [1]) (hob : d.operandBatchingDims = [])
    (hsim : d.startIndexMap = [1]) (hivd : d.indexVectorDim = 1) (hU : 0 < U)
    (x : (⟨2, ![L, U]⟩ : Shape).Idx → α) (idx : IVec ⟨2, ![N, 1]⟩ w) (l : Fin L) (n : Fin N) :
    Host.gather d x idx (ix2 l n) = x (ix2 l (clampIdx U hU (idx (ix2 n 0)))) := by
  have hbd : d.batchDims = [1] := by
    show Shape.kept _ d.offsetDims = [1]
    rw [hod]; rfl
  unfold Host.gather
  congr 1
  funext a
  apply Fin.ext
  match a with
  | ⟨0, _⟩ =>
    exact coord_kept d hod hob (ix2 l n) idx 0 (by rw [hsim]; simp) (by rw [hcoll]; simp)
  | ⟨1, _⟩ =>
    exact coord_gathered d hbd hob hivd (ix2 l n) n rfl idx 1 (by rw [hsim]; simp) (by rw [hcoll]; simp) 0 (by rw [hsim]; rfl)

/-- (D) ONE gathered axis, FIRST in the operand. Result element `(n, l)` of the gather of a `[U × L]` table at an
    `[N × 1]` column of start indices is the table at `(u, l)`, `u` row `n`'s start index read signed and clamped into
    the axis. -/
theorem gather_first1 {α : Type} {L U N w : Nat} (d : GatherDims ⟨2, ![U, L]⟩ ⟨2, ![N, 1]⟩ ⟨2, ![N, L]⟩)
    (hod : d.offsetDims = [1]) (hcoll : d.collapsedSliceDims = [0]) (hob : d.operandBatchingDims = [])
    (hsim : d.startIndexMap = [0]) (hivd : d.indexVectorDim = 1) (hU : 0 < U)
    (x : (⟨2, ![U, L]⟩ : Shape).Idx → α) (idx : IVec ⟨2, ![N, 1]⟩ w) (n : Fin N) (l : Fin L) :
    Host.gather d x idx (ix2 n l) = x (ix2 (clampIdx U hU (idx (ix2 n 0))) l) := by
  have hbd : d.batchDims = [0] := by
    show Shape.kept _ d.offsetDims = [0]
    rw [hod]; rfl
  unfold Host.gather
  congr 1
  funext a
  apply Fin.ext
  match a with
  | ⟨0, _⟩ =>
    exact coord_gathered d hbd hob hivd (ix2 n l) n rfl idx 0 (by rw [hsim]; simp) (by rw [hcoll]; simp) 0 (by rw [hsim]; rfl)
  | ⟨1, _⟩ =>
    exact coord_kept d hod hob (ix2 n l) idx 1 (by rw [hsim]; simp) (by rw [hcoll]; simp)

end Cert.LibGather2
-- ==== Proof.LibAllOnes.lean ====
/-
  Two readings a fill-mode `take` needs that the library states only one way round.

  * An `and`-reduction started at 1 over an array of `i1` words that are all 1 is 1 at every result index
    (`reduce_andi_of_all`): the converse of the library's reading of `jnp.all`, by the same fold.
  * A length-`m` vector laid along the second axis of an [n × m] rectangle in ONE broadcast (dimension map `[1]`)
    reads, at (p, q), the vector at `q` (`bcast_axis1`).
-/
import Idealize.ShloMosaic.Lib.ReduceAll
import Idealize.ShloMosaic.Lib.StableHlo.Predicate

noncomputable section

namespace Cert.LibAllOnes

open Idealize.ShloMosaic Idealize.ShloMosaic.StableHlo.Predicate

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi 1#1 1#1 = 1#1 := by decide
    rw [List.foldl_cons, ha, h11]
    exact foldl_andi_one f l (fun n hn => h n (List.mem_cons_of_mem _ hn))

/-- An `and`-reduction from 1 of an array whose every element is 1 is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun i _ => hx i)

/-- A vector laid along the second axis of an [n × m] rectangle by one broadcast reads, at (p, q), the vector at `q`. -/
theorem bcast_axis1 {α : Type} {n m : Nat} (h : (⟨1, ![m]⟩ : Shape).BroadcastsInDim ⟨2, ![n, m]⟩ ![1])
    (v : (⟨1, ![m]⟩ : Shape).Idx → α) (p : Fin n) (q : Fin m) :
    broadcastInDim ⟨2, ![n, m]⟩ ![1] h v (ij p q) = v (Shape.Idx.ofFin q) := by
  simp only [broadcastInDim]
  congr 1
  funext a
  have ha : a = 0 := Subsingleton.elim _ _
  subst ha
  apply Fin.ext
  have hq := q.isLt
  split
  · next h1 => change m = 1 at h1; show (0 : Nat) = q.val; omega
  · rfl

end Cert.LibAllOnes

end
-- ==== Proof.RefValue.lean ====
/-
  The reference's run, with its three results read as the specification's functions of the arguments.

  The reference is a straight line of host operations, two of them inside a table lookup it calls. The line is run as
  one list; each result buffer then holds the composition of the operations that lead to it, a function of the argument
  arrays alone. Over the extended reals these compositions are read index by index: a dense head at (p, l) is the sum
  over k of x (p, k) · W (l, k) plus the bias b l; the embedding head at (p, l) is the table's row l at the column the
  label of row p names, plus the bias. The lookup wraps a negative label and fills a label outside the table with a
  not-a-number; with every label in [0, 10000) neither happens, and the column is the label itself.
-/
import proofs.«425105_j69277822484525_2_alg».proof.ReferenceIdeal
import proofs.«425105_j69277822484525_2_alg».proof.Proof.Gen.ReferenceIdeal
import proofs.«425105_j69277822484525_2_alg».proof.Proof.Spec
import proofs.«425105_j69277822484525_2_alg».proof.Proof.LibDotNT
import proofs.«425105_j69277822484525_2_alg».proof.Proof.LibGather2
import proofs.«425105_j69277822484525_2_alg».proof.Proof.LibAllOnes
import Idealize.ShloMosaic.Lib.StableHlo.Run
import Idealize.ShloMosaic.Lib.ValueIdx
import Idealize.ShloMosaic.Lib.ValueLayout
import Idealize.ShloMosaic.Lib.KernelVsHost
import Idealize.ShloMosaic.Lib.Affine

noncomputable section

namespace Cert.RefSide

open Idealize.ShloMosaic Idealize.ShloMosaic.ValueIdx Idealize.SL.Sem Cert.ReferenceIdeal Idealize.ShloMosaic.StableHlo
open Cert.ReferenceIdeal.Facts₀

variable {F : FTy → Type} [FloatOps F]

/-! ## The lookup as a function of the table and the labels -/

/-- The label column: a negative label is shifted up by the table's width, the others are kept; the result is laid out as
    a one-column matrix. -/
def labelCol (y : IVec S262144 32) : IVec S262144x1 32 :=
  broadcastInDim S262144x1 ![0] bcast_S262144_S262144x1_0
    (select (cmpi .slt y (broadcastInDim S262144 ![] bcast_S_S262144 (constantI S_ 32 0#32)))
      (addi y (broadcastInDim S262144 ![] bcast_S_S262144 (constantI S_ 32 10000#32))) y)

/-- Per row, whether the label column lies inside the table: at least 0 and at most 9999, the two tests joined over the
    column's one entry. -/
def inTable (y : IVec S262144 32) : IVec S262144 1 :=
  Host.reduce IntOp.andi
    (andi (cmpi .sge (labelCol y) (broadcastInDim S262144x1 ![] bcast_S_S262144x1 (constantI S_ 32 0#32)))
      (cmpi .sle (labelCol y)
        (broadcastInDim S262144x1 ![0, 1] bcast_S1x1_S262144x1_0_1 (broadcastInDim S1x1 ![1] bcast_S1_S1x1_1 (constantI S1 32 9999#32)))))
    (constantI S_ 1 1#1) reducesTo_S262144x1_S262144_d1 h_S_

/-- The lookup: the table's column named by each row's label, and the fill value where the label is outside the table. -/
def lookup (W : FVec F S128x10000 .f32) (y : IVec S262144 32) : FVec F S128x262144 .f32 :=
  select (broadcastInDim S128x262144 ![1] bcast_S262144_S128x262144_1 (inTable y))
    (Host.gather gather_S128x10000_S262144x1_S128x262144_0_1_n_n_1_1_1281 W (labelCol y))
    (broadcastInDim S128x262144 ![] bcast_S_S128x262144 (constant S_ .f32 0x7FC00000#32))

/-- A dense head as the reference computes it. -/
def denseTerm (x : FVec F S262144x512 .f32) (W : FVec F S128x512 .f32) (b : FVec F S128 .f32) : FVec F S262144x128 .f32 :=
  addf (Host.dotGeneral dot_S262144x512_S128x512_S262144x128_1_1_0_0_n_n none x W)
    (broadcastInDim S262144x128 ![0, 1] bcast_S1x128_S262144x128_0_1 (broadcastInDim S1x128 ![1] bcast_S128_S1x128_1 b))

/-- The embedding head as the reference computes it. -/
def embedTerm (y : IVec S262144 32) (W : FVec F S128x10000 .f32) (b : FVec F S128 .f32) : FVec F S262144x128 .f32 :=
  addf (transpose S262144x128 [1, 0] (lookup W y) transposes_S128x262144_S262144x128_1_0)
    (broadcastInDim S262144x128 ![0, 1] bcast_S1x128_S262144x128_0_1 (broadcastInDim S1x128 ![1] bcast_S128_S1x128_1 b))

/-! ## The reference as one straight line

The reference's three heads, written out: the two dense heads are four operations each (the product, the bias laid
along a one-row matrix, that row copied down the rows, the sum); the embedding head is the table lookup — the label
column built from the labels (a negative label shifted up by the table's width, then the labels as a one-column
matrix), the test that the column lies inside the table, the gather of the table's columns, the choice between the
gathered value and the fill value — followed by the transpose, the bias and the sum. -/

/-- The operations in program order; the lookup's are listed where it is called, over the buffers of that call. -/
abbrev ops : List (HloOp τ sig (Elt F)) :=
  [ binary main_arg0 main_arg2 main_v0 ((fun l r => Host.dotGeneral dot_S262144x512_S128x512_S262144x128_1_1_0_0_n_n none l r) : (⟨S262144x512, .f32⟩ : BufTy).Contents (Elt F) → (⟨S128x512, .f32⟩ : BufTy).Contents (Elt F) → (⟨S262144x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S262144x128 ![0, 1] bcast_S1x128_S262144x128_0_1 : (⟨S1x128, .f32⟩ : BufTy).Contents (Elt F) → (⟨S262144x128, .f32⟩ : BufTy).Contents (Elt F)),
    binary main_v0 main_v2 main_v3 (addf : (⟨S262144x128, .f32⟩ : BufTy).Contents (Elt F) → (⟨S262144x128, .f32⟩ : BufTy).Contents (Elt F) → (⟨S262144x128, .f32⟩ : BufTy).Contents (Elt F)),
    binary main_arg0 main_arg4 main_v4 ((fun l r => Host.dotGeneral dot_S262144x512_S128x512_S262144x128_1_1_0_0_n_n none l r) : (⟨S262144x512, .f32⟩ : BufTy).Contents (Elt F) → (⟨S128x512, .f32⟩ : BufTy).Contents (Elt F) → (⟨S262144x128, .f32⟩ : BufTy).Contents (Elt F)),
    unary main_arg5 main_v5 (broadcastInDim S1x128 ![1] bcast_S128_S1x128_1 : (⟨S128, .f32⟩ : BufTy).Contents (Elt F) → (⟨S1x128, .f32⟩ : BufTy).Contents (Elt F)),
    unary main_v5 main_v6 (broadcastInDim S262144x128 ![0, 1] bcast_S1x128_S262144x128_0_1 : (⟨S1x128, .f32⟩ : BufTy).Contents (Elt F) → (⟨S262144x128, .f32⟩ : BufTy).Contents (Elt F)),
    binary main_v4 main_v6 main_v7 (addf : (⟨S262144x128, .f32⟩ : BufTy).Contents (Elt F) → (⟨S262144x128, .f32⟩ : BufTy).Contents (Elt F) → (⟨S262144x128, .f32⟩ : BufTy).Contents (Elt F)),
    TRef.nullary main_call0.c (constantI S_ 32 0#32),
    TRef.unary main_call0.c main_call0.v0 (broadcastInDim S262144 ![] bcast_S_S262144),
    TRef.binary (.of main_arg1) main_call0.v0 main_call0.v1 (cmpi .slt),
    TRef.nullary main_call0.c_0 (constantI S_ 32 10000#32),
    TRef.unary main_call0.c_0 main_call0.v2 (broadcastInDim S262144 ![] bcast_S_S262144),
    TRef.binary (.of main_arg1) main_call0.v2 main_call0.v3 addi,
    TRef.ternary main_call0.v1 main_call0.v3 (.of main_arg1) main_call0.call0.v0 select,
    TRef.unary main_call0.call0.v0 main_call0.v5 (broadcastInDim S262144x1 ![0] bcast_S262144_S262144x1_0),
    TRef.nullary main_call0.c_1 (constantI S1 32 9999#32),
    TRef.nullary main_call0.c_2 (constantI S_ 32 0#32),
    TRef.unary main_call0.c_2 main_call0.v6 (broadcastInDim S262144x1 ![] bcast_S_S262144x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S262144x1 ![0, 1] bcast_S1x1_S262144x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S262144x1_S262144_d1 h_S_),
    TRef.binary (.of main_arg6) main_call0.v5 main_call0.v13 (fun x i => Host.gather gather_S128x10000_S262144x1_S128x262144_0_1_n_n_1_1_1281 x i),
    TRef.unary main_call0.v12 main_call0.v14 (broadcastInDim S128x262144 ![1] bcast_S262144_S128x262144_1),
    TRef.nullary main_call0.cst (constant S_ .f32 0x7FC00000#32),
    TRef.unary main_call0.cst main_call0.v15 (broadcastInDim S128x262144 ![] bcast_S_S128x262144),
    TRef.ternary main_call0.v14 main_call0.v13 main_call0.v15 main_call0.v16 select,
    unary main_v8 main_v9 ((transpose S262144x128 [1, 0] · transposes_S128x262144_S262144x128_1_0) : (⟨S128x262144, .f32⟩ : BufTy).Contents (Elt F) → (⟨S262144x128, .f32⟩ : BufTy).Contents (Elt F)),
    unary main_arg7 main_v10 (broadcastInDim S1x128 ![1] bcast_S128_S1x128_1 : (⟨S128, .f32⟩ : BufTy).Contents (Elt F) → (⟨S1x128, .f32⟩ : BufTy).Contents (Elt F)),
    unary main_v10 main_v11 (broadcastInDim S262144x128 ![0, 1] bcast_S1x128_S262144x128_0_1 : (⟨S1x128, .f32⟩ : BufTy).Contents (Elt F) → (⟨S262144x128, .f32⟩ : BufTy).Contents (Elt F)),
    binary main_v9 main_v11 main_v12 (addf : (⟨S262144x128, .f32⟩ : BufTy).Contents (Elt F) → (⟨S262144x128, .f32⟩ : BufTy).Contents (Elt F) → (⟨S262144x128, .f32⟩ : BufTy).Contents (Elt F)) ]

set_option maxRecDepth 2048 in
/-- The program is that line: the lookup's two function bodies put in at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨binary_bufs_sub .., unary_bufs_sub .., unary_bufs_sub .., binary_bufs_sub ..,
    binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., unary_bufs_sub .., binary_bufs_sub ..⟩

/-- Every execution of the reference ends with each buffer at the line's fold over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The line's fold at the three results and at the arguments -/

section Fold
variable (V : Valuation τ sig (Elt F))

/-- The first dense head's buffer after the line. -/
theorem after_v3 : after ops V (Proc.devRef .tc main_v3)
    = denseTerm (V (Proc.devRef .tc main_arg0)) (V (Proc.devRef .tc main_arg2)) (V (Proc.devRef .tc main_arg3)) := by
  after_results_simp <;> rfl

/-- The second dense head's buffer after the line. -/
theorem after_v7 : after ops V (Proc.devRef .tc main_v7)
    = denseTerm (V (Proc.devRef .tc main_arg0)) (V (Proc.devRef .tc main_arg4)) (V (Proc.devRef .tc main_arg5)) := by
  after_results_simp <;> rfl

/-- The embedding head's buffer after the line: the typed references of the lookup's buffers carry contents along
    equations between a buffer's type and its value's, each the identity here. -/
theorem after_v12 : after ops V (Proc.devRef .tc main_v12)
    = embedTerm (V (Proc.devRef .tc main_arg1)) (V (Proc.devRef .tc main_arg6)) (V (Proc.devRef .tc main_arg7)) := by
  after_results_simp <;> (try simp only [TRef.ofBuf, TRef.toBuf, cast_eq]) <;> rfl

theorem after_arg0 : after ops V (Proc.devRef .tc main_arg0) = V (Proc.devRef .tc main_arg0) := by after_results_simp
theorem after_arg1 : after ops V (Proc.devRef .tc main_arg1) = V (Proc.devRef .tc main_arg1) := by after_results_simp
theorem after_arg2 : after ops V (Proc.devRef .tc main_arg2) = V (Proc.devRef .tc main_arg2) := by after_results_simp
theorem after_arg3 : after ops V (Proc.devRef .tc main_arg3) = V (Proc.devRef .tc main_arg3) := by after_results_simp
theorem after_arg4 : after ops V (Proc.devRef .tc main_arg4) = V (Proc.devRef .tc main_arg4) := by after_results_simp
theorem after_arg5 : after ops V (Proc.devRef .tc main_arg5) = V (Proc.devRef .tc main_arg5) := by after_results_simp
theorem after_arg6 : after ops V (Proc.devRef .tc main_arg6) = V (Proc.devRef .tc main_arg6) := by after_results_simp
theorem after_arg7 : after ops V (Proc.devRef .tc main_arg7) = V (Proc.devRef .tc main_arg7) := by after_results_simp

end Fold

/-! ## The heads read at an index, over the extended reals -/

/-- A bias laid along a one-row matrix and copied down the rows reads, at (p, l), the bias at l. -/
theorem bias_apply (b : FVec Ideal S128 .f32) (p : Fin 262144) (l : Fin 128) :
    broadcastInDim S262144x128 ![0, 1] bcast_S1x128_S262144x128_0_1 (broadcastInDim S1x128 ![1] bcast_S128_S1x128_1 b) (ix2 p l)
      = b (ix1 l) := by
  rw [broadcastInDim_oneRow_apply]
  exact broadcastInDim_apply ![1] bcast_S128_S1x128_1 b (ix2 (0 : Fin 1) l) (ix1 l) fun a => match a with | ⟨0, _⟩ => rfl

/-- A dense head is the specification's: row p of the input against row l of the weight, plus the bias. -/
theorem denseTerm_eq (x : FVec Ideal S262144x512 .f32) (W : FVec Ideal S128x512 .f32) (b : FVec Ideal S128 .f32) :
    denseTerm x W b = Spec.dense x W b := by
  funext i
  obtain ⟨p, l, rfl⟩ : ∃ (p : Fin 262144) (l : Fin 128), i = ix2 p l := ⟨i 0, i 1, eq_ix2 i⟩
  unfold denseTerm
  rw [addf_apply, Cert.LibDotNT.dotGeneral_nt_apply _ rfl rfl rfl rfl rfl rfl, bias_apply]
  rfl

/-- A label that is not negative is kept: the label column at row p is the label. -/
theorem labelCol_apply (y : IVec S262144 32) (p : Fin 262144) (u : Fin 1) (h0 : 0 ≤ (y (ix1 p)).toInt) :
    labelCol y (ix2 p u) = y (ix1 p) := by
  unfold labelCol
  rw [broadcastInDim_apply ![0] bcast_S262144_S262144x1_0 _ (ix2 p u) (ix1 p) fun a => match a with | ⟨0, _⟩ => rfl]
  rw [select_apply]
  have hlt : cmpi .slt y (broadcastInDim S262144 ![] bcast_S_S262144 (constantI S_ 32 0#32)) (ix1 p) = 0#1 := by
    refine eq_zero_of_ne_one fun h => ?_
    have h' : IntOp.cmpi .slt (y (ix1 p)) 0#32 = 1#1 := h
    rw [IntOp.cmpi_slt] at h'
    have hz : (0#32 : BitVec 32).toInt = 0 := by decide
    omega
  rw [hlt, select_zero]

/-- Under the labels' range every row's test succeeds. -/
theorem inTable_apply (y : IVec S262144 32)
    (hy : ∀ p : Fin 262144, 0 ≤ (y (ix1 p)).toInt ∧ (y (ix1 p)).toInt < 10000) (j : S262144.Idx) :
    inTable y j = 1#1 := by
  unfold inTable
  refine Cert.LibAllOnes.reduce_andi_of_all _ _ _ _ j rfl fun i => ?_
  obtain ⟨p, u, rfl⟩ : ∃ (p : Fin 262144) (u : Fin 1), i = ix2 p u := ⟨i 0, i 1, eq_ix2 i⟩
  have hge : IntOp.cmpi .sge (y (ix1 p)) 0#32 = 1#1 := by
    rw [IntOp.cmpi_sge]
    have hz : (0#32 : BitVec 32).toInt = 0 := by decide
    have := (hy p).1; omega
  have hle : IntOp.cmpi .sle (y (ix1 p)) 9999#32 = 1#1 := by
    rw [IntOp.cmpi_sle]
    have hz : (9999#32 : BitVec 32).toInt = 9999 := by decide
    have := (hy p).2; omega
  show IntOp.andi (IntOp.cmpi .sge (labelCol y (ix2 p u)) 0#32) (IntOp.cmpi .sle (labelCol y (ix2 p u)) 9999#32) = 1#1
  rw [labelCol_apply y p u (hy p).1, hge, hle]
  decide

/-- Under the labels' range the lookup at (l, p) is the table's row l at the column the label of row p names. -/
theorem lookup_apply (W : FVec Ideal S128x10000 .f32) (y : IVec S262144 32)
    (hy : ∀ p : Fin 262144, 0 ≤ (y (ix1 p)).toInt ∧ (y (ix1 p)).toInt < 10000) (l : Fin 128) (p : Fin 262144) :
    lookup W y (ix2 l p) = W (ix2 l (Spec.col (y (ix1 p)))) := by
  unfold lookup
  rw [select_apply]
  have hm : broadcastInDim S128x262144 ![1] bcast_S262144_S128x262144_1 (inTable y) (ix2 l p) = 1#1 := by
    rw [broadcastInDim_apply ![1] bcast_S262144_S128x262144_1 _ (ix2 l p) (ix1 p) fun a => match a with | ⟨0, _⟩ => rfl]
    exact inTable_apply y hy _
  rw [hm, select_one, Cert.LibGather2.gather_last1 _ rfl rfl rfl rfl rfl (by decide : 0 < 10000),
    labelCol_apply y p 0 (hy p).1]
  rfl

/-- The embedding head is the specification's, under the labels' range. -/
theorem embedTerm_eq (y : IVec S262144 32) (W : FVec Ideal S128x10000 .f32) (b : FVec Ideal S128 .f32)
    (hy : ∀ p : Fin 262144, 0 ≤ (y (ix1 p)).toInt ∧ (y (ix1 p)).toInt < 10000) :
    embedTerm y W b = Spec.embed y W b := by
  funext i
  obtain ⟨p, l, rfl⟩ : ∃ (p : Fin 262144) (l : Fin 128), i = ix2 p l := ⟨i 0, i 1, eq_ix2 i⟩
  unfold embedTerm
  rw [addf_apply, transpose_ix2_apply, lookup_apply W y hy, bias_apply]
  rfl

/-! ## The reference's run -/

/-- Every execution of the reference ends with its three results at the specification's functions of the arguments — the
    embedding head under the labels' range —, and the arguments as they were. -/
theorem run (m' : (ℓ : Loc nD τ sig) → Buf (Elt Ideal) ℓ) (ρ' : Dev nD → PrngReg)
    (hy : ∀ (c : Dev nD) (p : Fin 262144), 0 ≤ ((m' ((c.tc : Thread nD τ).loc main_arg1) : IVec S262144 32) (ix1 p)).toInt
      ∧ ((m' ((c.tc : Thread nD τ).loc main_arg1) : IVec S262144 32) (ix1 p)).toInt < 10000) :
    θ_run (defs (F := Ideal)) (onTc (τ := τ) (main (F := Ideal))) ⟨m', fun _ => 0, ρ'⟩ (fun r => ∀ c : Dev nD,
      r.2.mem ((c.tc : Thread nD τ).loc main_v3) = Spec.dense (m' ((c.tc : Thread nD τ).loc main_arg0)) (m' ((c.tc : Thread nD τ).loc main_arg2)) (m' ((c.tc : Thread nD τ).loc main_arg3))
      ∧ r.2.mem ((c.tc : Thread nD τ).loc main_v7) = Spec.dense (m' ((c.tc : Thread nD τ).loc main_arg0)) (m' ((c.tc : Thread nD τ).loc main_arg4)) (m' ((c.tc : Thread nD τ).loc main_arg5))
      ∧ r.2.mem ((c.tc : Thread nD τ).loc main_v12) = Spec.embed (m' ((c.tc : Thread nD τ).loc main_arg1)) (m' ((c.tc : Thread nD τ).loc main_arg6)) (m' ((c.tc : Thread nD τ).loc main_arg7))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) :=
  (θ_run (defs (F := Ideal)) _ _).mono (fun _ h c =>
    ⟨((h c main_v3).trans (after_v3 _)).trans (denseTerm_eq _ _ _),
     ((h c main_v7).trans (after_v7 _)).trans (denseTerm_eq _ _ _),
     ((h c main_v12).trans (after_v12 _)).trans (embedTerm_eq _ _ _ (hy c)),
     (h c main_arg0).trans (after_arg0 _), (h c main_arg1).trans (after_arg1 _), (h c main_arg2).trans (after_arg2 _),
     (h c main_arg3).trans (after_arg3 _), (h c main_arg4).trans (after_arg4 _), (h c main_arg5).trans (after_arg5 _),
     (h c main_arg6).trans (after_arg6 _), (h c main_arg7).trans (after_arg7 _)⟩)
    (run_line m' ρ')

end Cert.RefSide

end
-- ==== Proof.lean ====
/-
  The kernel computes, for 262144 rows in 256 tiles of 1024, two dense heads x·Wᵀ + b (as one 256-wide product against
  the concatenated, transposed weights, sliced in two) and an embedding lookup W_embed[:, y]ᵀ + b_embed, done as a
  one-hot product against the zero-padded, transposed table split in a leading part and a remainder, accumulated
  over eight blocks of 1280 table rows; the labels are clipped into [0, 9999] first. The reference computes the heads
  with two contractions and the lookup with a gather that wraps negative labels and fills out-of-range ones.

  Over the extended reals a change of float format is the identity, so the table's remainder is w − w, which is 0 for
  a finite w; a one-hot row sum picks one table row whatever the entries are (0 · x = 0, 1 · x = x); sums of products
  are the same sums however they are blocked. Under the precondition — every float input finite, every label in
  [0, 10000) — the clip, the wrap and the gather's clamp all leave the label alone and the fill never appears, so both
  programs end at the same three arrays: the functions `Cert.Spec.dense` and `Cert.Spec.embed` of the arguments.

  The frames of the two kernel programs are generated; the reference's frame is its run with the results dropped;
  the idealization rewrote nothing, so its claim is trivial.
-/
import proofs.«425105_j69277822484525_2_alg».proof.Defs
import proofs.«425105_j69277822484525_2_alg».proof.Proof.Gen.Kernel
import proofs.«425105_j69277822484525_2_alg».proof.Proof.Gen.Kernel.Frame
import proofs.«425105_j69277822484525_2_alg».proof.Proof.Gen.KernelIdeal
import proofs.«425105_j69277822484525_2_alg».proof.Proof.Gen.KernelIdeal.Frame
import proofs.«425105_j69277822484525_2_alg».proof.Proof.Gen.ReferenceIdeal
import proofs.«425105_j69277822484525_2_alg».proof.Proof.Gen.Pre_finite_inputs
import proofs.«425105_j69277822484525_2_alg».proof.Proof.PreFacts
import proofs.«425105_j69277822484525_2_alg».proof.Proof.KRun
import proofs.«425105_j69277822484525_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. The labels' range comes from the precondition. -/
theorem frame_ri : Cert.frame_ReferenceIdeal := fun m ρ hpre =>
  (θ_run (Cert.ReferenceIdeal.defs (F := Ideal)) _ _).mono (fun _ h c => (h c).2.2.2)
    (Cert.RefSide.run m ρ fun c p => (Cert.PreFacts.of_pre _ _ _ _ _ _ _ _ (hpre c)).2 p)

theorem preserves : Cert.preserves_Kernel_KernelIdeal := trivial

/-- Both programs end at the specification's three arrays of the arguments, which agree. -/
theorem algebraic : Cert.algebraic_KernelIdeal_ReferenceIdeal := by
  intro m ρ m' ρ' hpre hagree
  have hfin : ∀ (c : Dev Cert.KernelIdeal.nD) (i : Cert.KernelIdeal.S128x10000.Idx),
      ∃ r : ℝ, (m ((c.tc : Thread Cert.KernelIdeal.nD Cert.KernelIdeal.τ).loc Cert.KernelIdeal.main_arg6) : FVec Ideal Cert.KernelIdeal.S128x10000 .f32) i = (r : EReal) :=
    fun c i => (Cert.PreFacts.of_pre _ _ _ _ _ _ _ _ (hpre c)).1 i
  have hy : ∀ (c : Dev Cert.ReferenceIdeal.nD) (p : Fin 262144),
      0 ≤ ((m' ((c.tc : Thread Cert.ReferenceIdeal.nD Cert.ReferenceIdeal.τ).loc Cert.ReferenceIdeal.main_arg1) : IVec Cert.ReferenceIdeal.S262144 32) (ValueIdx.ix1 p)).toInt
      ∧ ((m' ((c.tc : Thread Cert.ReferenceIdeal.nD Cert.ReferenceIdeal.τ).loc Cert.ReferenceIdeal.main_arg1) : IVec Cert.ReferenceIdeal.S262144 32) (ValueIdx.ix1 p)).toInt < 10000 := by
    intro c p
    rw [(hagree c).2.1]
    exact (Cert.PreFacts.of_pre _ _ _ _ _ _ _ _ (hpre c)).2 p
  refine ⟨_, _, _, Cert.KernelSide.run m ρ hfin, ?_⟩
  refine (θ_run (Cert.ReferenceIdeal.defs (F := Ideal)) _ _).mono (fun _ h c => ⟨?_, ?_, ?_, (h c).2.2.2⟩) (Cert.RefSide.run m' ρ' hy)
  · rw [(h c).1, (hagree c).1, (hagree c).2.2.1, (hagree c).2.2.2.1]
  · rw [(h c).2.1, (hagree c).1, (hagree c).2.2.2.2.1, (hagree c).2.2.2.2.2.1]
  · rw [(h c).2.2.1, (hagree c).2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
